-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : IVec S16x128x128x64 32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  main_v3
-- ==== Kernel.lean ====
abbrev S16x128x128x64 : Shape := ⟨4, ![16, 128, 128, 64]⟩
abbrev S16x128x8192 : Shape := ⟨3, ![16, 128, 8192]⟩
abbrev S1x128x8192 : Shape := ⟨3, ![1, 128, 8192]⟩
abbrev S_ : Shape := ⟨0, ![]⟩
abbrev S67108864 : Shape := ⟨1, ![67108864]⟩
abbrev S16777216 : Shape := ⟨1, ![16777216]⟩
abbrev S16777216x1 : Shape := ⟨2, ![16777216, 1]⟩
abbrev S16x256x256x64 : Shape := ⟨4, ![16, 256, 256, 64]⟩

abbrev nBuf : Space → Nat
  | .hbm => 18
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16x128x8192, .i32⟩
  | .hbm, ⟨3, _⟩ => ⟨S16x128x8192, .i32⟩
  | .hbm, ⟨4, _⟩ => ⟨S_, .f32⟩
  | .hbm, ⟨5, _⟩ => ⟨S67108864, .f32⟩
  | .hbm, ⟨6, _⟩ => ⟨S16777216, .i32⟩
  | .hbm, ⟨7, _⟩ => ⟨S16777216, .f32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S67108864, .f32⟩
  | .hbm, ⟨17, _⟩ => ⟨S16x256x256x64, .f32⟩
  | .local _ .vmem, ⟨0, _⟩ => ⟨S1x128x8192, .i32⟩
  | .local _ .vmem, ⟨1, _⟩ => ⟨S1x128x8192, .i32⟩
  | .local _ .vmem, ⟨2, _⟩ => ⟨S1x128x8192, .i32⟩
  | .local _ .vmem, ⟨3, _⟩ => ⟨S1x128x8192, .i32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x128x128x64_S16x128x8192 : S16x128x128x64.ShapeCasts S16x128x8192
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S1x128x8192 : S1x128x8192.ShapeCasts S1x128x8192
  iota_S1x128x8192_d2_w32 : S1x128x8192.Iotas .tc 32 [2]
  bcast_S_S67108864 : S_.BroadcastsInDim S67108864 (![] : Fin 0 → Fin S67108864.rank)
  shapeCasts_S16x128x8192_S16777216 : S16x128x8192.ShapeCasts S16777216
  shapeCasts_S16x128x128x64_S16777216 : S16x128x128x64.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S16x128x8192.size a
  hwx0_0 : ∀ i : grid0.Coords, EltTy.bits .i32 = 32 ∨ (Rect.block (s := S16x128x8192) S1x128x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S16x128x8192.size a
  hwx0_1 : ∀ i : grid0.Coords, EltTy.bits .i32 = 32 ∨ (Rect.block (s := S16x128x8192) S1x128x8192.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_v0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S_ : Shape := ⟨0, ![]⟩
abbrev S16 : Shape := ⟨1, ![16]⟩
abbrev S16x1x1x1 : Shape := ⟨4, ![16, 1, 1, 1]⟩
abbrev S64 : Shape := ⟨1, ![64]⟩
abbrev S1x1x1x64 : Shape := ⟨4, ![1, 1, 1, 64]⟩
abbrev S16x256x256x64 : Shape := ⟨4, ![16, 256, 256, 64]⟩
abbrev S16x128x128x64x1 : Shape := ⟨5, ![16, 128, 128, 64, 1]⟩
abbrev S16x128x128x64x4 : Shape := ⟨5, ![16, 128, 128, 64, 4]⟩

abbrev nBuf : Space → Nat
  | .hbm => 124
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S_, .i32⟩
  | .hbm, ⟨3, _⟩ => ⟨S_, .i32⟩
  | .hbm, ⟨4, _⟩ => ⟨S16x128x128x64, .i32⟩
  | .hbm, ⟨5, _⟩ => ⟨S16x128x128x64, .i32⟩
  | .hbm, ⟨6, _⟩ => ⟨S16x128x128x64, .i32⟩
  | .hbm, ⟨7, _⟩ => ⟨S_, .i32⟩
  | .hbm, ⟨8, _⟩ => ⟨S16x128x128x64, .i32⟩
  | .hbm, ⟨9, _⟩ => ⟨S16x128x128x64, .i1⟩
  | .hbm, ⟨10, _⟩ => ⟨S16x128x128x64, .i32⟩
  | .hbm, ⟨11, _⟩ => ⟨S16x128x128x64, .i32⟩
  | .hbm, ⟨12, _⟩ => ⟨S_, .i32⟩
  | .hbm, ⟨13, _⟩ => ⟨S16x128x128x64, .i32⟩
  | .hbm, ⟨14, _⟩ => ⟨S16x128x128x64, .i1⟩
  | .hbm, ⟨15, _⟩ => ⟨S16x128x128x64, .i1⟩
  | .hbm, ⟨16, _⟩ => ⟨S_, .i32⟩
  | .hbm, ⟨17, _⟩ => ⟨S16x128x128x64, .i32⟩
  | .hbm, ⟨18, _⟩ => ⟨S16x128x128x64, .i32⟩
  | .hbm, ⟨19, _⟩ => ⟨S16x128x128x64, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S16x128x128x64, .i32⟩
  | .hbm, ⟨27, _⟩ => ⟨S16x128x128x64, .i32⟩
  | .hbm, ⟨28, _⟩ => ⟨S_, .i32⟩
  | .hbm, ⟨29, _⟩ => ⟨S16x128x128x64, .i32⟩
  | .hbm, ⟨30, _⟩ => ⟨S16x128x128x64, .i1⟩
  | .hbm, ⟨31, _⟩ => ⟨S_, .i32⟩
  | .hbm, ⟨32, _⟩ => ⟨S16x128x128x64, .i32⟩
  | .hbm, ⟨33, _⟩ => ⟨S16x128x128x64, .i1⟩
  | .hbm, ⟨34, _⟩ => ⟨S_, .i32⟩
  | .hbm, ⟨35, _⟩ => ⟨S_, .i1⟩
  | .hbm, ⟨36, _⟩ => ⟨S16x128x128x64, .i1⟩
  | .hbm, ⟨37, _⟩ => ⟨S16x128x128x64, .i1⟩
  | .hbm, ⟨38, _⟩ => ⟨S16x128x128x64, .i1⟩
  | .hbm, ⟨39, _⟩ => ⟨S16x128x128x64, .i32⟩
  | .hbm, ⟨40, _⟩ => ⟨S16x128x128x64, .i32⟩
  | .hbm, ⟨41, _⟩ => ⟨S16x128x128x64, .i32⟩
  | .hbm, ⟨42, _⟩ => ⟨S_, .i32⟩
  | .hbm, ⟨43, _⟩ => ⟨S_, .i32⟩
  | .hbm, ⟨44, _⟩ => ⟨S16x128x128x64, .i32⟩
  | .hbm, ⟨45, _⟩ => ⟨S16x128x128x64, .i32⟩
  | .hbm, ⟨46, _⟩ => ⟨S16x128x128x64, .i32⟩
  | .hbm, ⟨47, _⟩ => ⟨S_, .i32⟩
  | .hbm, ⟨48, _⟩ => ⟨S16x128x128x64, .i32⟩
  | .hbm, ⟨49, _⟩ => ⟨S16x128x128x64, .i1⟩
  | .hbm, ⟨50, _⟩ => ⟨S16x128x128x64, .i32⟩
  | .hbm, ⟨51, _⟩ => ⟨S16x128x128x64, .i32⟩
  | .hbm, ⟨52, _⟩ => ⟨S_, .i32⟩
  | .hbm, ⟨53, _⟩ => ⟨S16x128x128x64, .i32⟩
  | .hbm, ⟨54, _⟩ => ⟨S16x128x128x64, .i1⟩
  | .hbm, ⟨55, _⟩ => ⟨S16x128x128x64, .i1⟩
  | .hbm, ⟨56, _⟩ => ⟨S_, .i32⟩
  | .hbm, ⟨57, _⟩ => ⟨S16x128x128x64, .i32⟩
  | .hbm, ⟨58, _⟩ => ⟨S16x128x128x64, .i32⟩
  | .hbm, ⟨59, _⟩ => ⟨S16x128x128x64, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S16x128x128x64, .i32⟩
  | .hbm, ⟨67, _⟩ => ⟨S16x128x128x64, .i32⟩
  | .hbm, ⟨68, _⟩ => ⟨S_, .i32⟩
  | .hbm, ⟨69, _⟩ => ⟨S16x128x128x64, .i32⟩
  | .hbm, ⟨70, _⟩ => ⟨S16x128x128x64, .i1⟩
  | .hbm, ⟨71, _⟩ => ⟨S_, .i32⟩
  | .hbm, ⟨72, _⟩ => ⟨S16x128x128x64, .i32⟩
  | .hbm, ⟨73, _⟩ => ⟨S16x128x128x64, .i1⟩
  | .hbm, ⟨74, _⟩ => ⟨S_, .i32⟩
  | .hbm, ⟨75, _⟩ => ⟨S_, .i1⟩
  | .hbm, ⟨76, _⟩ => ⟨S16x128x128x64, .i1⟩
  | .hbm, ⟨77, _⟩ => ⟨S16x128x128x64, .i1⟩
  | .hbm, ⟨78, _⟩ => ⟨S16x128x128x64, .i1⟩
  | .hbm, ⟨79, _⟩ => ⟨S16x128x128x64, .i32⟩
  | .hbm, ⟨80, _⟩ => ⟨S16x128x128x64, .i32⟩
  | .hbm, ⟨81, _⟩ => ⟨S16x128x128x64, .i32⟩
  | .hbm, ⟨82, _⟩ => ⟨S16, .i32⟩
  | .hbm, ⟨83, _⟩ => ⟨S16x1x1x1, .i32⟩
  | .hbm, ⟨84, _⟩ => ⟨S64, .i32⟩
  | .hbm, ⟨85, _⟩ => ⟨S1x1x1x64, .i32⟩
  | .hbm, ⟨86, _⟩ => ⟨S_, .f32⟩
  | .hbm, ⟨87, _⟩ => ⟨S16x256x256x64, .f32⟩
  | .hbm, ⟨88, _⟩ => ⟨S_, .i32⟩
  | .hbm, ⟨89, _⟩ => ⟨S16x1x1x1, .i32⟩
  | .hbm, ⟨90, _⟩ => ⟨S16x1x1x1, .i1⟩
  | .hbm, ⟨91, _⟩ => ⟨S_, .i32⟩
  | .hbm, ⟨92, _⟩ => ⟨S16x1x1x1, .i32⟩
  | .hbm, ⟨93, _⟩ => ⟨S16x1x1x1, .i32⟩
  | .hbm, ⟨94, _⟩ => ⟨S16x1x1x1, .i32⟩
  | .hbm, ⟨95, _⟩ => ⟨S_, .i32⟩
  | .hbm, ⟨96, _⟩ => ⟨S16x128x128x64, .i32⟩
  | .hbm, ⟨97, _⟩ => ⟨S16x128x128x64, .i1⟩
  | .hbm, ⟨98, _⟩ => ⟨S_, .i32⟩
  | .hbm, ⟨99, _⟩ => ⟨S16x128x128x64, .i32⟩
  | .hbm, ⟨100, _⟩ => ⟨S16x128x128x64, .i32⟩
  | .hbm, ⟨101, _⟩ => ⟨S16x128x128x64, .i32⟩
  | .hbm, ⟨102, _⟩ => ⟨S_, .i32⟩
  | .hbm, ⟨103, _⟩ => ⟨S16x128x128x64, .i32⟩
  | .hbm, ⟨104, _⟩ => ⟨S16x128x128x64, .i1⟩
  | .hbm, ⟨105, _⟩ => ⟨S_, .i32⟩
  | .hbm, ⟨106, _⟩ => ⟨S16x128x128x64, .i32⟩
  | .hbm, ⟨107, _⟩ => ⟨S16x128x128x64, .i32⟩
  | .hbm, ⟨108, _⟩ => ⟨S16x128x128x64, .i32⟩
  | .hbm, ⟨109, _⟩ => ⟨S_, .i32⟩
  | .hbm, ⟨110, _⟩ => ⟨S1x1x1x64, .i32⟩
  | .hbm, ⟨111, _⟩ => ⟨S1x1x1x64, .i1⟩
  | .hbm, ⟨112, _⟩ => ⟨S_, .i32⟩
  | .hbm, ⟨113, _⟩ => ⟨S1x1x1x64, .i32⟩
  | .hbm, ⟨114, _⟩ => ⟨S1x1x1x64, .i32⟩
  | .hbm, ⟨115, _⟩ => ⟨S1x1x1x64, .i32⟩
  | .hbm, ⟨116, _⟩ => ⟨S16x128x128x64, .i32⟩
  | .hbm, ⟨117, _⟩ => ⟨S16x128x128x64, .i32⟩
  | .hbm, ⟨118, _⟩ => ⟨S16x128x128x64x1, .i32⟩
  | .hbm, ⟨119, _⟩ => ⟨S16x128x128x64x1, .i32⟩
  | .hbm, ⟨120, _⟩ => ⟨S16x128x128x64x1, .i32⟩
  | .hbm, ⟨121, _⟩ => ⟨S16x128x128x64x1, .i32⟩
  | .hbm, ⟨122, _⟩ => ⟨S16x128x128x64x4, .i32⟩
  | .hbm, ⟨123, _⟩ => ⟨S16x256x256x64, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v2 : Ref sig .tc := ⟨.hbm, 59, rfl⟩
abbrev main_c_2 : Ref sig .tc := ⟨.hbm, 60, rfl⟩
abbrev main_call3_v0 : Ref sig .tc := ⟨.hbm, 61, rfl⟩
abbrev main_call3_c : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_1 : Ref sig .tc := ⟨.hbm, 68, rfl⟩
abbrev main_call3_v5 : Ref sig .tc := ⟨.hbm, 69, rfl⟩
abbrev main_call3_v6 : Ref sig .tc := ⟨.hbm, 70, rfl⟩
abbrev main_call3_c_2 : Ref sig .tc := ⟨.hbm, 71, rfl⟩
abbrev main_call3_v7 : Ref sig .tc := ⟨.hbm, 72, rfl⟩
abbrev main_call3_v8 : Ref sig .tc := ⟨.hbm, 73, rfl⟩
abbrev main_call3_c_3 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_v3 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_cst : Ref sig .tc := ⟨.hbm, 86, rfl⟩
abbrev main_v8 : Ref sig .tc := ⟨.hbm, 87, rfl⟩
abbrev main_c_3 : Ref sig .tc := ⟨.hbm, 88, rfl⟩
abbrev main_v9 : Ref sig .tc := ⟨.hbm, 89, rfl⟩
abbrev main_v10 : Ref sig .tc := ⟨.hbm, 90, rfl⟩
abbrev main_c_4 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_c_5 : Ref sig .tc := ⟨.hbm, 95, rfl⟩
abbrev main_v14 : Ref sig .tc := ⟨.hbm, 96, rfl⟩
abbrev main_v15 : Ref sig .tc := ⟨.hbm, 97, rfl⟩
abbrev main_c_6 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_c_7 : Ref sig .tc := ⟨.hbm, 102, rfl⟩
abbrev main_v19 : Ref sig .tc := ⟨.hbm, 103, rfl⟩
abbrev main_v20 : Ref sig .tc := ⟨.hbm, 104, rfl⟩
abbrev main_c_8 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_c_9 : Ref sig .tc := ⟨.hbm, 109, rfl⟩
abbrev main_v24 : Ref sig .tc := ⟨.hbm, 110, rfl⟩
abbrev main_v25 : Ref sig .tc := ⟨.hbm, 111, rfl⟩
abbrev main_c_10 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩

abbrev nD : Nat := 1
abbrev τ : Topo := Topo.v7x

variable {F : FTy → Type} [FloatOps F]

class Facts₀ : Prop where
  bcast_S_S16x128x128x64 : S_.BroadcastsInDim S16x128x128x64 (![] : Fin 0 → Fin S16x128x128x64.rank)
  shapeCasts_S16_S16x1x1x1 : S16.ShapeCasts S16x1x1x1
  shapeCasts_S64_S1x1x1x64 : S64.ShapeCasts S1x1x1x64
  bcast_S_S16x256x256x64 : S_.BroadcastsInDim S16x256x256x64 (![] : Fin 0 → Fin S16x256x256x64.rank)
  bcast_S_S16x1x1x1 : S_.BroadcastsInDim S16x1x1x1 (![] : Fin 0 → Fin S16x1x1x1.rank)
  bcast_S_S1x1x1x64 : S_.BroadcastsInDim S1x1x1x64 (![] : Fin 0 → Fin S1x1x1x64.rank)
  bcast_S16x1x1x1_S16x128x128x64_0_1_2_3 : S16x1x1x1.BroadcastsInDim S16x128x128x64 (![0, 1, 2, 3] : Fin 4 → Fin S16x128x128x64.rank)
  bcast_S1x1x1x64_S16x128x128x64_0_1_2_3 : S1x1x1x64.BroadcastsInDim S16x128x128x64 (![0, 1, 2, 3] : Fin 4 → Fin S16x128x128x64.rank)
  bcast_S16x128x128x64_S16x128x128x64x1_0_1_2_3 : S16x128x128x64.BroadcastsInDim S16x128x128x64x1 (![0, 1, 2, 3] : Fin 4 → Fin S16x128x128x64x1.rank)
  concatenates_S16x128x128x64x1_S16x128x128x64x1_S16x128x128x64x1_S16x128x128x64x1_S16x128x128x64x4_d4 : Shape.Concatenates [S16x128x128x64x1, S16x128x128x64x1, S16x128x128x64x1, S16x128x128x64x1] S16x128x128x64x4 4
  scatter_S16x256x256x64_S16x128x128x64x4_S16x128x128x64_n_0123_0123_4_wf : ScatterDims.WF S16x256x256x64 S16x128x128x64x4 S16x128x128x64 [] [0, 1, 2, 3] [0, 1, 2, 3] 4

variable [Facts₀]

def scatter_S16x256x256x64_S16x128x128x64x4_S16x128x128x64_n_0123_0123_4 : ScatterDims S16x256x256x64 S16x128x128x64x4 S16x128x128x64 where
  updateWindowDims := []
  insertedWindowDims := [0, 1, 2, 3]
  scatterDimsToOperandDims := [0, 1, 2, 3]
  indexVectorDim := 4
  wf := scatter_S16x256x256x64_S16x128x128x64x4_S16x128x128x64_n_0123_0123_4_wf

class Facts : Prop extends Facts₀ where

variable [Facts]
-- ==== Proof.Spec.lean ====
/-
  Max-unpooling as one function of the two argument arrays.

  Every pooled value `U[b, h, w, c]` is added into the upsampled map at row and column decoded from its
  index word `A[b, h, w, c]`: the row is bits 14 to 21 of the word, the column bits 6 to 13 (the word is
  `(y * 256 + x) * 64 + c'` for a 256 x 256 x 64 map, and only `y` and `x` are read off it); batch and
  channel are the value's own position. Entry `(b, y, x, c)` of the result is the sum of the values that land
  there.
-/
import Idealize.ShloMosaic.PureOps
import Idealize.ShloMosaic.PureOps.Ideal
import Idealize.ShloMosaic.Lib.ValueIdx

noncomputable section

namespace Unpool

open Idealize.ShloMosaic

/-- The pooled values' and the index words' shape. -/
abbrev SU : Shape := ⟨4, ![16, 128, 128, 64]⟩
/-- The upsampled map's shape. -/
abbrev SO : Shape := ⟨4, ![16, 256, 256, 64]⟩

/-- The row an index word names: bits 14 to 21. -/
def rowW (a : BitVec 32) : BitVec 32 :=
  IntOp.andi (IntOp.shrsi .vector (IntOp.andi a 4194303#32) 14#32) 255#32

/-- The column an index word names: bits 6 to 13. -/
def colW (a : BitVec 32) : BitVec 32 :=
  IntOp.andi (IntOp.shrsi .vector (IntOp.andi a 4194303#32) 6#32) 255#32

/-- Where the value at position `j` lands: its own batch and channel, the row and column of its index word. -/
def Lands (A : IVec SU 32) (i : SO.Idx) (j : SU.Idx) : Prop :=
  (j 0).val = (i 0).val ∧ (rowW (A j)).toNat = (i 1).val ∧ (colW (A j)).toNat = (i 2).val ∧ (j 3).val = (i 3).val

instance (A : IVec SU 32) (i : SO.Idx) (j : SU.Idx) : Decidable (Lands A i j) := by
  unfold Lands; infer_instance

/-- The upsampled map: at each entry the sum of the pooled values that land there. -/
def unpool (U : SU.Idx → EReal) (A : IVec SU 32) : SO.Idx → EReal :=
  fun i => ∑ j ∈ Finset.univ.filter (fun j : SU.Idx => Lands A i j), U j

end Unpool

end
-- ==== Proof.Words.lean ====
/-
  Word arithmetic of the index decode. An index word `a` is read as `(y * 256 + x) * 64 + c'`; the row `y` is
  `(a div 16384) mod 256`, bits 14 to 21 of the word, and the column `x` is `(a div 64) mod 256`, bits 6 to 13,
  for EVERY 32-bit word, negative ones included, when the division is the floor division and the remainder is the
  non-negative one. The flat position of entry `(b, y, x, c)` of a 16 x 256 x 256 x 64 map is
  `b * 2^22 + y * 2^14 + x * 64 + c`, below `2^26`.
-/
import Idealize.ShloMosaic.PureOps
import Idealize.ShloMosaic.Lib.WordArith
import proofs.«403445_j52673478918313_3_alg».proof.Proof.Spec

noncomputable section

namespace Unpool.Words

open Idealize.ShloMosaic Unpool

/-- The sign of a word as a word: 0, 1 or -1. -/
def sgnW (x : BitVec 32) : BitVec 32 := if x = 0 then 0 else if x.msb then -1 else 1

/-- Floor division of two words: the truncating quotient, less one where the signs differ and the remainder is not zero. -/
def floorDivW (a d : BitVec 32) : BitVec 32 :=
  Scalar.select
    (IntOp.andi (IntOp.cmpi .ne (sgnW a) (sgnW d)) (IntOp.cmpi .ne (IntOp.remsi .host a d) 0#32))
    (IntOp.subi (IntOp.divsi .host a d) 1#32)
    (IntOp.divsi .host a d)

/-- The remainder with the divisor's sign: the truncating remainder, plus the divisor where it is not zero and its sign
    differs from the divisor's. -/
def moduloW (a d : BitVec 32) : BitVec 32 :=
  Scalar.select
    (IntOp.andi
      (IntOp.cmpi .ne (IntOp.cmpi .slt (IntOp.remsi .host a d) 0#32) (IntOp.cmpi .slt d 0#32))
      (IntOp.cmpi .ne (IntOp.remsi .host a d) 0#32))
    (IntOp.addi (IntOp.remsi .host a d) d)
    (IntOp.remsi .host a d)

/-- An index wrapped once: `v + n` where `v` is negative. -/
def wrapW (n v : BitVec 32) : BitVec 32 := Scalar.select (IntOp.cmpi .slt v 0#32) (IntOp.addi v n) v

/-! ### The division and remainder away from their corner, and the signed reading of a word -/

/-- Away from its corner (a zero divisor, or the least word over `-1`) the signed division is the truncating quotient. -/
private theorem divsi_lit (a d : BitVec 32) (h0 : d ≠ 0) (h1 : d ≠ -1) : IntOp.divsi .host a d = a.sdiv d := by
  unfold IntOp.divsi
  rw [if_neg]
  rintro (h | ⟨_, h⟩)
  · exact h0 h
  · exact h1 h

/-- Away from the same corner the signed remainder is the truncating remainder. -/
private theorem remsi_lit (a d : BitVec 32) (h0 : d ≠ 0) (h1 : d ≠ -1) : IntOp.remsi .host a d = a.srem d := by
  unfold IntOp.remsi
  rw [if_neg]
  rintro (h | ⟨_, h⟩)
  · exact h0 h
  · exact h1 h

/-- The signed reading of a word: its natural value, less `2^32` from `2^31` on. -/
private theorem toInt_cond (x : BitVec 32) :
    x.toInt = if 2 * x.toNat < 4294967296 then (x.toNat : Int) else (x.toNat : Int) - 4294967296 := by
  have := BitVec.toInt_eq_toNat_cond x
  simpa using this

/-- Masking to the low 22 bits clears the sign, so the arithmetic shift by `s` is the division by `2^s`; the mask by 255 keeps
    the low eight bits of the quotient. -/
private theorem bits_toNat (a s : BitVec 32) (hs : s.toNat < 32) :
    (IntOp.andi (IntOp.shrsi .vector (IntOp.andi a 4194303#32) s) 255#32).toNat
      = a.toNat % 4194304 / 2 ^ s.toNat % 256 := by
  unfold IntOp.andi IntOp.shrsi
  rw [if_pos hs]
  have hm : (a &&& 4194303#32).msb = false := by
    have h : (4194303#32 : BitVec 32).msb = false := by decide
    rw [BitVec.msb_and, h, Bool.and_false]
  rw [BitVec.toNat_and, BitVec.toNat_sshiftRight'_of_msb_false hm, BitVec.toNat_and]
  have e1 : (4194303#32 : BitVec 32).toNat = 2 ^ 22 - 1 := by decide
  have e2 : (255#32 : BitVec 32).toNat = 2 ^ 8 - 1 := by decide
  rw [e1, e2, Nat.and_two_pow_sub_one_eq_mod, Nat.and_two_pow_sub_one_eq_mod, Nat.shiftRight_eq_div_pow]

private theorem rowW_toNat (a : BitVec 32) : (rowW a).toNat = a.toNat % 4194304 / 16384 % 256 :=
  bits_toNat a 14#32 (by decide)

private theorem colW_toNat (a : BitVec 32) : (colW a).toNat = a.toNat % 4194304 / 64 % 256 :=
  bits_toNat a 6#32 (by decide)

/-- The sign word is one exactly for the positive words. -/
private theorem sgnW_eq_one_iff (a : BitVec 32) : sgnW a = 1 ↔ 0 < a.toInt := by
  have hc := toInt_cond a
  unfold sgnW
  by_cases h0 : a = 0
  · subst h0; simp
  · rw [if_neg h0]
    have hne : a.toNat ≠ 0 := fun h => h0 (BitVec.eq_of_toNat_eq (by simpa using h))
    by_cases hm : a.msb = true
    · rw [if_pos hm]
      have := BitVec.msb_eq_true_iff_two_mul_ge.mp hm
      have h1 : ((-1 : BitVec 32) = 1) = False := by decide
      rw [h1]
      constructor
      · intro h; exact h.elim
      · intro h; split at hc <;> omega
    · rw [if_neg hm]
      have := BitVec.msb_eq_false_iff_two_mul_lt.mp (by simpa using hm)
      constructor
      · intro _; split at hc <;> omega
      · intro _; rfl

/-- Floor division by a positive word: the truncating quotient, less one where the dividend is not positive and the
    division is not exact. -/
private theorem floorDivW_eq (a d : BitVec 32) (h0 : d ≠ 0) (h1 : d ≠ -1) (hs : sgnW d = 1) :
    floorDivW a d = if (¬ 0 < a.toInt) ∧ a.srem d ≠ 0 then a.sdiv d - 1 else a.sdiv d := by
  unfold floorDivW Scalar.select
  rw [divsi_lit a d h0 h1, remsi_lit a d h0 h1, hs]
  simp only [IntOp.cmpi, WordArith.andi_ofBool, WordArith.ofBool_eq_numeral_one_iff, IntOp.subi]
  simp only [Bool.and_eq_true, bne_iff_ne, ne_eq, sgnW_eq_one_iff]
  rfl

/-- The truncating remainder is zero exactly where the divisor divides the dividend, as integers. -/
private theorem srem_eq_zero_iff (a d : BitVec 32) : a.srem d = 0 ↔ d.toInt ∣ a.toInt := by
  rw [Int.dvd_iff_tmod_eq_zero, ← BitVec.toInt_srem]
  constructor
  · intro h; rw [h]; rfl
  · intro h; apply BitVec.eq_of_toInt_eq; rw [h]; rfl

/-- Floor division by 16384 or by 64, read signed. -/
private theorem toInt_floorDivW (a d : BitVec 32) (D : Int) (hD : d.toInt = D) (hd : D = 16384 ∨ D = 64) (h0 : d ≠ 0) (h1 : d ≠ -1) (hs : sgnW d = 1) :
    (floorDivW a d).toInt = a.toInt / D := by
  have hc := toInt_cond a
  have ha := a.isLt
  have hq : (a.sdiv d).toInt = a.toInt.tdiv D := by
    rw [BitVec.toInt_sdiv_of_ne_or_ne a d (Or.inr h1), hD]
  have hone : (1 : BitVec 32).toInt = 1 := by decide
  rw [floorDivW_eq a d h0 h1 hs]
  simp only [ne_eq, srem_eq_zero_iff, hD]
  rw [Int.tdiv_eq_ediv] at hq
  rcases hd with rfl | rfl
  · have hsg : Int.sign (16384 : Int) = 1 := by decide
    rw [hsg] at hq
    split
    · rename_i hcnd
      rw [WordArith.toInt_sub_of_bounds _ _ (by rw [hq, hone]; split at hq <;> split at hc <;> omega) (by rw [hq, hone]; split at hc <;> omega), hq, hone]
      split <;> omega
    · rename_i hcnd
      rw [hq]
      split <;> omega
  · have hsg : Int.sign (64 : Int) = 1 := by decide
    rw [hsg] at hq
    split
    · rename_i hcnd
      rw [WordArith.toInt_sub_of_bounds _ _ (by rw [hq, hone]; split at hq <;> split at hc <;> omega) (by rw [hq, hone]; split at hc <;> omega), hq, hone]
      split <;> omega
    · rename_i hcnd
      rw [hq]
      split <;> omega

/-- The remainder by 256 with the divisor's sign, read signed: the non-negative remainder. -/
private theorem toInt_moduloW (q : BitVec 32) : (moduloW q 256#32).toInt = q.toInt % 256 := by
  have h0 : (256#32 : BitVec 32) ≠ 0 := by decide
  have h1 : (256#32 : BitVec 32) ≠ -1 := by decide
  have hD : (256#32 : BitVec 32).toInt = 256 := by decide
  have hz : (0#32 : BitVec 32).toInt = 0 := by decide
  have hdn : (256#32 : BitVec 32).slt 0#32 = false := by decide
  have hr : (q.srem 256#32).toInt = q.toInt.tmod 256 := by rw [BitVec.toInt_srem, hD]
  rw [Int.tmod_eq_emod] at hr
  have hab : ((256 : Int).natAbs : Int) = 256 := by decide
  have hc := toInt_cond q
  have hq := q.isLt
  unfold moduloW Scalar.select
  rw [remsi_lit q 256#32 h0 h1]
  simp only [IntOp.cmpi, WordArith.andi_ofBool, WordArith.ofBool_eq_numeral_one_iff, IntOp.addi, hdn]
  by_cases hneg : (q.srem 256#32).slt 0#32 = true
  · have hlt := BitVec.slt_iff_toInt_lt.mp hneg
    rw [hz] at hlt
    have hne : q.srem 256#32 ≠ 0#32 := by
      intro h; rw [h, hz] at hlt; omega
    rw [if_pos (by simp [hneg, hne])]
    rw [WordArith.toInt_add_of_bounds _ _ (by rw [hD]; split at hr <;> omega) (by rw [hD]; omega), hD]
    split at hr <;> omega
  · have hge : ¬ (q.srem 256#32).toInt < 0 := by
      intro h; exact hneg (BitVec.slt_iff_toInt_lt.mpr (by rw [hz]; exact h))
    rw [if_neg (by simp [hneg])]
    split at hr <;> omega

/-! ### The decode -/

/-- `(a div 16384) mod 256` is bits 14 to 21 of `a`, for every word. -/
theorem row_eq (a : BitVec 32) : moduloW (floorDivW a 16384#32) 256#32 = rowW a := by
  apply BitVec.eq_of_toInt_eq
  have hr := rowW_toNat a
  have hc := toInt_cond a
  have ha := a.isLt
  rw [toInt_moduloW, toInt_floorDivW a 16384#32 16384 (by decide) (Or.inl rfl) (by decide) (by decide) (by decide),
    BitVec.toInt_eq_toNat_of_lt (x := rowW a) (by omega), hr]
  split at hc <;> omega

/-- `(a div 64) mod 256` is bits 6 to 13 of `a`, for every word. -/
theorem col_eq (a : BitVec 32) : moduloW (floorDivW a 64#32) 256#32 = colW a := by
  apply BitVec.eq_of_toInt_eq
  have hr := colW_toNat a
  have hc := toInt_cond a
  have ha := a.isLt
  rw [toInt_moduloW, toInt_floorDivW a 64#32 64 (by decide) (Or.inr rfl) (by decide) (by decide) (by decide),
    BitVec.toInt_eq_toNat_of_lt (x := colW a) (by omega), hr]
  split at hc <;> omega

theorem rowW_lt (a : BitVec 32) : (rowW a).toNat < 256 := by
  rw [rowW_toNat]; omega

theorem colW_lt (a : BitVec 32) : (colW a).toNat < 256 := by
  rw [colW_toNat]; omega

/-- A word that is not negative is left alone by the wrap. -/
theorem wrapW_of_lt (n v : BitVec 32) (h : v.toNat < 2 ^ 31) : wrapW n v = v := by
  have hv : v.toInt = v.toNat := BitVec.toInt_eq_toNat_of_lt (by omega)
  have hz : (0#32 : BitVec 32).toInt = 0 := by decide
  have hs : v.slt 0#32 = false := by
    rw [BitVec.slt_eq_decide, hv, hz, decide_eq_false_iff_not]; omega
  unfold wrapW Scalar.select
  simp only [IntOp.cmpi, hs]
  rw [if_neg (by decide)]

/-- A word below `2^31` reads signed as itself. -/
theorem toInt_of_lt (v : BitVec 32) (h : v.toNat < 2 ^ 31) : v.toInt = (v.toNat : Int) := by
  exact BitVec.toInt_eq_toNat_of_lt (by omega)

/-- The flat position word built from a batch `b`, an index word `a` and a lane position `l` (channel `l mod 64`). -/
def flatW (b : Nat) (a : BitVec 32) (l : BitVec 32) : BitVec 32 :=
  IntOp.addi
    (IntOp.addi
      (IntOp.addi (Scalar.muli (BitVec.ofNat 32 b) 4194304#32) (IntOp.muli (rowW a) 16384#32))
      (IntOp.muli (colW a) 64#32))
    (IntOp.andi l 63#32)

/-- Its value: `b * 2^22 + y * 2^14 + x * 64 + l mod 64`, no wrap-around. -/
theorem flatW_toNat (b : Nat) (hb : b < 16) (a : BitVec 32) (l : Nat) (hl : l < 8192) :
    (flatW b a (BitVec.ofNat 32 l)).toNat
      = b * 4194304 + (rowW a).toNat * 16384 + (colW a).toNat * 64 + l % 64 := by
  have hr := rowW_lt a
  have hcl := colW_lt a
  have e1 : (4194304#32 : BitVec 32).toNat = 4194304 := by decide
  have e2 : (16384#32 : BitVec 32).toNat = 16384 := by decide
  have e3 : (64#32 : BitVec 32).toNat = 64 := by decide
  have e4 : (63#32 : BitVec 32).toNat = 2 ^ 6 - 1 := by decide
  have hand : (BitVec.ofNat 32 l &&& 63#32).toNat = l % 64 := by
    rw [BitVec.toNat_and, e4, Nat.and_two_pow_sub_one_eq_mod, BitVec.toNat_ofNat]; omega
  unfold flatW Scalar.muli IntOp.addi IntOp.muli IntOp.andi
  rw [BitVec.toNat_add, BitVec.toNat_add, BitVec.toNat_add, BitVec.toNat_mul, BitVec.toNat_mul, BitVec.toNat_mul,
    hand, BitVec.toNat_ofNat b 32, e1, e2, e3]
  omega

end Unpool.Words

end
-- ==== Proof.KernelValue.lean ====
/-
  What the idealized kernel computes, read off its frame run. The pallas region maps every index word of batch `b`
  to the flat position `b * 2^22 + y * 2^14 + x * 64 + c` of the entry its pooled value is added to (one grid point
  per batch, the block the whole `[1, 128, 8192]` slab, the channel the lane position mod 64); the host operations
  after it add the pooled values, flattened, into a flat zero map at those positions and give the map its shape.
-/
import proofs.«403445_j52673478918313_3_alg».proof.Proof.KernelIdealFrame
import proofs.«403445_j52673478918313_3_alg».proof.Proof.Words
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Unpool.Words

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The flat positions as one array: entry `(b, h, l)` from the index word there, the batch `b` and the lane `l`. -/
def flatArr (X : IVec S16x128x8192 32) : IVec S16x128x8192 32 :=
  fun i => flatW (i 0).val (X i) (BitVec.ofNat 32 (i 2).val)

/-- The body's stored value at an entry of the block: the flat position word of the loaded index word. -/
theorem pay_apply (i : grid0.Coords) (x0 : Vec F S1x128x8192 .i32) (y : S1x128x8192.Idx) :
    k0_pay1 i x0 y = flatW (i 0).val (x0 y) (BitVec.ofNat 32 (y 2).val) := by
  unfold k0_pay1 flatW Unpool.rowW Unpool.colW
  simp only [shapeCast_self, addi, muli, andi, shrsi, broadcast, iota, List.foldl, Nat.zero_mul, Nat.zero_add]

/-- The printed index maps over the grid: both windows' block at point `t` is slab `t`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ ((grid0.coords t) 0).val = t.val :=
  (by decide +kernel : ∀ t : Fin grid0.N, _)

/-- What point `t` writes back is block `t` of the flat positions of the index array as the region finds it. -/
theorem flushed_eq (c : Dev nD) (t : Fin cfg0.N) :
    (dats m 0 c).flushed 1 t = ((cfg0.win 1).blk t).view.read (Elt F) (flatArr (V m c main_v0)) := by
  show (cfg0.win 1).cut (grid0.coords t) ((dats m 0 c).after 1 t) = _
  rw [after0_1]
  unfold out0_1
  rw [View.canon_unit_zero hz]
  simp only [View.ld_unit_zero (S := S1x128x8192) hz]
  obtain ⟨e0, e1, e2, e3, e4, e5, e6⟩ := idx_facts t
  funext y
  show k0_pay1 (grid0.coords t) (iblk m c 0 t) y = flatArr (V m c main_v0) (((cfg0.win 1).blk t).view.emb y)
  rw [pay_apply]
  have hy0 : (y 0).val < 1 := (y 0).isLt
  have hemb : ((cfg0.win 0).blk t).view.emb y = ((cfg0.win 1).blk t).view.emb y := by
    funext a; apply Fin.ext
    match a with
    | ⟨0, _⟩ => show win0_0.index t (0 : Fin 3) * 1 + 1 * (y 0).val = win0_1.index t (0 : Fin 3) * 1 + 1 * (y 0).val; omega
    | ⟨1, _⟩ => show win0_0.index t (1 : Fin 3) * 128 + 1 * (y 1).val = win0_1.index t (1 : Fin 3) * 128 + 1 * (y 1).val; omega
    | ⟨2, _⟩ => show win0_0.index t (2 : Fin 3) * 8192 + 1 * (y 2).val = win0_1.index t (2 : Fin 3) * 8192 + 1 * (y 2).val; omega
  have h0 : ((((cfg0.win 1).blk t).view.emb y) 0).val = ((grid0.coords t) 0).val := by
    show win0_1.index t (0 : Fin 3) * 1 + 1 * (y 0).val = _; omega
  have h2 : ((((cfg0.win 1).blk t).view.emb y) 2).val = (y 2).val := by
    show win0_1.index t (2 : Fin 3) * 8192 + 1 * (y 2).val = _; omega
  unfold flatArr
  rw [h0, h2]
  show flatW _ (V m c main_v0 (((cfg0.win 0).blk t).view.emb y)) _ = _
  rw [hemb]

/-- An index of the array is in point `t`'s block iff each coordinate is in the block's range on its axis. -/
theorem mem_blk (t : Fin cfg0.N) (i : S16x128x8192.Idx) :
    i ∈ ((cfg0.win 1).blk t).view.set ↔ ∀ a : Fin 3, win0_1.index t a * S1x128x8192.size a ≤ (i a).val ∧ (i a).val < win0_1.index t a * S1x128x8192.size a + S1x128x8192.size a := by
  show i ∈ ((View.whole main_v1).slice (win0_1.rect t)).set ↔ _
  rw [View.set_slice_whole, Rect.mem_set_unit]
  exact Iff.rfl

/-- The sixteen slabs cover the array (entry `(b, h, l)` is in slab `b`), so it ends holding the flat positions. -/
theorem final (c : Dev nD) : (dats m 0 c).arrAt 1 cfg0.N = flatArr (V m c main_v0) :=
  (dats m 0 c).arrAt_eq_of_cover 1 (flatArr (V m c main_v0)) (fun t _ => flushed_eq m c t) fun i => by
    obtain ⟨t0, ht0⟩ : ∃ t0 : Fin cfg0.N, t0.val = (i 0).val := ⟨⟨(i 0).val, (i 0).isLt⟩, rfl⟩
    refine ⟨t0, flush0_1 t0, ?_⟩
    rw [mem_blk]
    obtain ⟨e0, e1, e2, e3, e4, e5, e6⟩ := idx_facts t0
    have h1 : (i 1).val < 128 := (i 1).isLt
    have h2 : (i 2).val < 8192 := (i 2).isLt
    intro a
    match a with
    | ⟨0, _⟩ => show win0_1.index t0 (0 : Fin 3) * 1 ≤ (i 0).val ∧ (i 0).val < win0_1.index t0 (0 : Fin 3) * 1 + 1; omega
    | ⟨1, _⟩ => show win0_1.index t0 (1 : Fin 3) * 128 ≤ (i 1).val ∧ (i 1).val < win0_1.index t0 (1 : Fin 3) * 128 + 128; omega
    | ⟨2, _⟩ => show win0_1.index t0 (2 : Fin 3) * 8192 ≤ (i 2).val ∧ (i 2).val < win0_1.index t0 (2 : Fin 3) * 8192 + 8192; omega

/-- The region finds the index words re-laid as `[16, 128, 8192]`. -/
theorem V_main_v0 (c : Dev nD) :
    (V m c main_v0 : S16x128x8192.Idx → BitVec 32)
      = shapeCast S16x128x8192 (m ((c : Thread nD τ).loc main_arg1) : S16x128x128x64.Idx → BitVec 32) shapeCasts_S16x128x128x64_S16x128x8192 := by
  show StableHlo.after hostOps0 (fun b => m (c, b)) (Proc.devRef .tc main_v0) = _
  after_results
  rfl

/-- The flat positions of all index words, in the pooled values' flat order. -/
def flatIdx (A : IVec S16x128x128x64 32) : IVec S16777216 32 :=
  shapeCast S16777216 (flatArr (shapeCast S16x128x8192 A shapeCasts_S16x128x128x64_S16x128x8192)) shapeCasts_S16x128x8192_S16777216

/-- The kernel's result as one term of its two arguments. -/
def kerOut (U : FVec F S16x128x128x64 .f32) (A : IVec S16x128x128x64 32) : FVec F S16x256x256x64 .f32 :=
  shapeCast S16x256x256x64
    (Host.scatterAdd scatter_S67108864_S16777216x1_S16777216_n_0_0_1
      (broadcastInDim S67108864 ![] bcast_S_S67108864 (constant S_ .f32 0x00000000#32))
      (broadcastInDim S16777216x1 ![0] bcast_S16777216_S16777216x1_0
        (select (cmpi .slt (flatIdx A) (broadcastInDim S16777216 ![] bcast_S_S16777216 (constantI S_ 32 0#32)))
          (addi (flatIdx A) (broadcastInDim S16777216 ![] bcast_S_S16777216 (constantI S_ 32 67108864#32)))
          (flatIdx A)))
      (shapeCast S16777216 U shapeCasts_S16x128x128x64_S16777216))
    shapeCasts_S67108864_S16x256x256x64

/-- The result buffer after the host operations that follow the region. -/
theorem tail_eq (c : Dev nD) :
    Pipeline.afterTail₀ cfgs (dats m) 0 (V0 m) [hostOps1] c main_v12
      = kerOut (F := F) (m ((c : Thread nD τ).loc main_arg0)) (m ((c : Thread nD τ).loc main_arg1)) := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v1)
        = (dats m 0 c).arrAt 1 cfg0.N from Pipeline.withArrays_arr spec0 launch0.win.arr_inj c (V0 m c) _ 1,
    show Pipeline.withArrays (cfgs 0).spec c (V0 m c) (fun w => (dats m 0 c).arrAt w (cfgs 0).N) (Proc.devRef .tc main_arg0)
        = V0 m c (Proc.devRef .tc main_arg0) from
      Pipeline.withArrays_of_ne _ c (V0 m c) _ main_arg0 (by exact (by decide : ∀ w, Pipeline.arrRef spec0 w ≠ main_arg0)),
    final, V_main_v0]
  rw [show V0 m c (Proc.devRef .tc main_arg0) = m ((c : Thread nD τ).loc main_arg0) from V_main_arg0 m c]
  rfl

/-- The frame run, read: the result buffer at `kerOut` of the arguments, the arguments kept. -/
theorem run : θ_run defs (onTc (τ := τ) (main (F := F))) ⟨m, fun _ => 0, ρ⟩ fun r => ∀ c : Dev nD,
      r.2.mem ((c.tc : Thread nD τ).loc main_v12)
          = kerOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.LibScatter.lean ====
/-
  The host's accumulating scatter read at an index, for the two layouts a sparse product uses: scalars added into
  a vector at the positions an index column names, and rows added into a matrix at the rows an index column names.
-/
import Idealize.ShloMosaic.PureOps
import Idealize.ShloMosaic.Lib.ValueIdx

noncomputable section

namespace Idealize.ShloMosaic.ScatterRead

open Idealize.ShloMosaic Idealize.ShloMosaic.ValueIdx

/-! ## When an update lands at a given entry -/

/-- An update lands at `i` exactly when, on every operand axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := congrArg Fin.val (congrFun (Option.some.inj h) a)
      simp only at h2
      have := (hh a).1
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    apply Fin.ext
    simp [h a]

/-! ## Scalars into a vector: start and window of an update -/

private theorem flat_start {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) :
    (⟨[], [0], [0], 1, wf⟩ : ScatterDims ⟨1, ![N]⟩ ⟨2, ![n, 1]⟩ ⟨1, ![n]⟩).start j idx 0 = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem flat_window {N n : Nat} (wf : ScatterDims.WF ⟨1, ![N]⟩ ⟨2, ![n, 1]⟩ ⟨1, ![n]⟩ [] [0] [0] 1)
    (j : (⟨1, ![n]⟩ : Shape).Idx) :
    (⟨[], [0], [0], 1, wf⟩ : ScatterDims ⟨1, ![N]⟩ ⟨2, ![n, 1]⟩ ⟨1, ![n]⟩).window j 0 = 0 := by
  unfold ScatterDims.window
  rw [dif_neg]
  exact fun h => (of_decide_eq_true (List.mem_filter.mp h).2) (List.mem_singleton.mpr rfl)

/-- Flat layout: an update lands at `k` exactly when its index word, read signed, is `k`. -/
private theorem flat_resultIdx? {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) (k : Fin N) :
    (⟨[], [0], [0], 1, wf⟩ : ScatterDims ⟨1, ![N]⟩ ⟨2, ![n, 1]⟩ ⟨1, ![n]⟩).resultIdx? j idx = some (ix1 k)
      ↔ (idx (ix2 (j 0) 0)).toInt = (k.val : Int) := by
  rw [resultIdx?_eq_some_iff]
  constructor
  · intro h
    have h0 := h 0
    rw [flat_start, flat_window, Nat.cast_zero, add_zero] at h0
    exact h0
  · intro h a
    obtain rfl : a = 0 := Subsingleton.elim _ _
    rw [flat_start, flat_window, h, Nat.cast_zero, add_zero]
    rfl

/-- SCALARS INTO A VECTOR. Entry `k` of the result is the operand's entry plus the sum of the updates `upd[i]`
    whose index word `idx[i, 0]`, read signed, is `k`; an update whose index is outside `[0, N)` lands nowhere. -/
theorem scatterAdd_flat_apply {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![n, 1]⟩ w) (upd : (⟨1, ![n]⟩ : Shape).Idx → EReal) (k : Fin N) :
    Ideal.hostScatterAdd d x idx upd (ix1 k)
      = x (ix1 k) + ∑ i ∈ Finset.univ.filter (fun i : Fin n => (idx (ix2 i 0)).toInt = (k.val : Int)), upd (ix1 i) := by
  obtain ⟨uw, iw, sd, iv, wf⟩ := d
  dsimp only at hu hi hs hv
  subst hu hi hs hv
  unfold Ideal.hostScatterAdd
  congr 1
  refine Finset.sum_nbij' (fun j : (⟨1, ![n]⟩ : Shape).Idx => (j 0 : Fin n)) (fun i : Fin n => ix1 i) ?_ ?_ ?_ ?_ ?_
  · intro j hj
    exact Finset.mem_filter.mpr ⟨Finset.mem_univ _, (flat_resultIdx? wf idx j k).mp (Finset.mem_filter.mp hj).2⟩
  · intro i hi
    exact Finset.mem_filter.mpr ⟨Finset.mem_univ _, (flat_resultIdx? wf idx (ix1 i) k).mpr (Finset.mem_filter.mp hi).2⟩
  · intro j _
    exact (eq_ix1 j).symm
  · intro i _
    rfl
  · intro j _
    exact congrArg upd (eq_ix1 j)

/-! ## Rows into a matrix: start and window of an update -/

private theorem rows_start0 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 0
      = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem rows_start1 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 1 = 0 := by
  unfold ScatterDims.start
  rw [dif_neg]
  exact fun h => Nat.one_ne_zero (congrArg Fin.val (List.mem_singleton.mp h))

private theorem rows_window0 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 0 = 0 := by
  unfold ScatterDims.window
  rw [dif_neg]
  exact fun h => (of_decide_eq_true (List.mem_filter.mp h).2) (List.mem_singleton.mpr rfl)

private theorem rows_window1 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 1 = (j 1).val := by
  have h1 : (1 : Fin 2) ∈ (⟨[1], [0], [0], 1, wf⟩ : ScatterDims ⟨2, ![R, C]⟩ ⟨2, ![n, 1]⟩ ⟨2, ![n, C]⟩).sKept :=
    List.mem_filter.mpr ⟨List.mem_finRange _,
      decide_eq_true (fun h => Nat.one_ne_zero (congrArg Fin.val (List.mem_singleton.mp h)))⟩
  unfold ScatterDims.window
  rw [dif_pos h1]
  rfl

/-- Row layout: an update lands at `(r, b)` exactly when its index word, read signed, is `r` and its column is `b`. -/
private theorem rows_resultIdx? {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) (r : Fin R) (b : Fin C) :
    (⟨[1], [0], [0], 1, wf⟩ : ScatterDims ⟨2, ![R, C]⟩ ⟨2, ![n, 1]⟩ ⟨2, ![n, C]⟩).resultIdx? j idx = some (ix2 r b)
      ↔ (idx (ix2 (j 0) 0)).toInt = (r.val : Int) ∧ (j 1).val = b.val := by
  rw [resultIdx?_eq_some_iff]
  constructor
  · intro h
    have h0 := h 0
    have h1 := h 1
    rw [rows_start0, rows_window0, Nat.cast_zero, add_zero] at h0
    rw [rows_start1, rows_window1, zero_add] at h1
    exact ⟨h0, by exact_mod_cast h1⟩
  · intro h a
    match a with
    | ⟨0, _⟩ =>
      show ScatterDims.start _ j idx 0 + ((ScatterDims.window _ j 0 : Nat) : Int) = _
      rw [rows_start0, rows_window0, h.1, Nat.cast_zero, add_zero]
    | ⟨1, _⟩ =>
      show ScatterDims.start _ j idx 1 + ((ScatterDims.window _ j 1 : Nat) : Int) = _
      rw [rows_start1, rows_window1, h.2, zero_add]

/-- ROWS INTO A MATRIX. Entry `(r, b)` of the result is the operand's entry plus the sum of the updates
    `upd[i, b]` over the rows `i` whose index word `idx[i, 0]`, read signed, is `r`. -/
theorem scatterAdd_rows_apply {R C n w : Nat} (d : ScatterDims (⟨2, ![R, C]⟩ : Shape) ⟨2, ![n, 1]⟩ ⟨2, ![n, C]⟩)
    (hu : d.updateWindowDims = [1]) (hi : d.insertedWindowDims = [0]) (hs : d.scatterDimsToOperandDims = [0])
    (hv : d.indexVectorDim = 1)
    (x : (⟨2, ![R, C]⟩ : Shape).Idx → EReal) (idx : IVec ⟨2, ![n, 1]⟩ w) (upd : (⟨2, ![n, C]⟩ : Shape).Idx → EReal)
    (r : Fin R) (b : Fin C) :
    Ideal.hostScatterAdd d x idx upd (ix2 r b)
      = x (ix2 r b) + ∑ i ∈ Finset.univ.filter (fun i : Fin n => (idx (ix2 i 0)).toInt = (r.val : Int)), upd (ix2 i b) := by
  obtain ⟨uw, iw, sd, iv, wf⟩ := d
  dsimp only at hu hi hs hv
  subst hu hi hs hv
  unfold Ideal.hostScatterAdd
  congr 1
  refine Finset.sum_nbij' (fun j : (⟨2, ![n, C]⟩ : Shape).Idx => (j 0 : Fin n)) (fun i : Fin n => ix2 i b) ?_ ?_ ?_ ?_ ?_
  · intro j hj
    exact Finset.mem_filter.mpr ⟨Finset.mem_univ _, ((rows_resultIdx? wf idx j r b).mp (Finset.mem_filter.mp hj).2).1⟩
  · intro i hi
    exact Finset.mem_filter.mpr ⟨Finset.mem_univ _, (rows_resultIdx? wf idx (ix2 i b) r b).mpr ⟨(Finset.mem_filter.mp hi).2, rfl⟩⟩
  · intro j hj
    have hb : (j 1 : Fin C) = b := Fin.ext ((rows_resultIdx? wf idx j r b).mp (Finset.mem_filter.mp hj).2).2
    show ix2 (j 0 : Fin n) b = j
    rw [← hb]
    exact (eq_ix2 j).symm
  · intro i _
    rfl
  · intro j hj
    have hb : (j 1 : Fin C) = b := Fin.ext ((rows_resultIdx? wf idx j r b).mp (Finset.mem_filter.mp hj).2).2
    show upd j = upd (ix2 (j 0 : Fin n) b)
    rw [← hb]
    exact congrArg upd (eq_ix2 j)

end Idealize.ShloMosaic.ScatterRead

end
-- ==== Proof.KernelBridge.lean ====
/-
  The kernel's result is the unpooling. Its flat scatter adds pooled value number `n` (the row-major position of
  `(b, h, w, c)`) at flat position `b * 2^22 + y * 2^14 + x * 64 + c`, which is the row-major position of entry
  `(b, y, x, c)` of the map; positions and entries correspond one to one, so entry by entry the flat sum is the sum
  over the pooled values that land there.
-/
import proofs.«403445_j52673478918313_3_alg».proof.Proof.KernelValue
import proofs.«403445_j52673478918313_3_alg».proof.Proof.LibScatter
import Idealize.ShloMosaic.PureOps.Ideal
import Idealize.ShloMosaic.PureOps.Ideal.Laws

noncomputable section

open Idealize.ShloMosaic Idealize.ShloMosaic.ValueIdx

namespace Cert.KernelIdeal.KValue

open Cert.KernelIdeal Cert.KernelIdeal.Gen Unpool Unpool.Words Idealize.ShloMosaic.ScatterRead

/-- The flat position word of pooled value `j`, read at its row-major number `n`. -/
theorem flatIdx_apply (A : IVec S16x128x128x64 32) (j : S16x128x128x64.Idx) (n : Fin 16777216)
    (hn : (S16x128x128x64.rowMajor j).val = n.val) :
    flatIdx A (ix1 n) = flatW (j 0).val (A j) (BitVec.ofNat 32 ((j 2).val * 64 + (j 3).val)) := by
  have h0 : (j 0).val < 16 := (j 0).isLt
  have h1 : (j 1).val < 128 := (j 1).isLt
  have h2 : (j 2).val < 128 := (j 2).isLt
  have h3 : (j 3).val < 64 := (j 3).isLt
  rw [Shape.rowMajor_val_four] at hn
  have hn' : (((j 0).val * 128 + (j 1).val) * 128 + (j 2).val) * 64 + (j 3).val = n.val := hn
  let i' : S16x128x8192.Idx := ix3 (j 0) (j 1) (⟨(j 2).val * 64 + (j 3).val, by omega⟩ : Fin 8192)
  unfold flatIdx
  rw [shapeCast_apply _ _ (ix1 n) i' (by
    rw [Shape.rowMajor_val_three, Shape.rowMajor_val_one]
    show ((j 0).val * 128 + (j 1).val) * 8192 + ((j 2).val * 64 + (j 3).val) = n.val
    omega)]
  unfold flatArr
  rw [shapeCast_apply _ _ i' j (by
    rw [Shape.rowMajor_val_four, Shape.rowMajor_val_three]
    show (((j 0).val * 128 + (j 1).val) * 128 + (j 2).val) * 64 + (j 3).val
      = ((j 0).val * 128 + (j 1).val) * 8192 + ((j 2).val * 64 + (j 3).val)
    omega)]

/-- The index column read at row `n`: the flat position word of pooled value `n`, wrapped once if negative. -/
theorem column_apply (x : IVec S16777216 32) (n : Fin 16777216) :
    broadcastInDim S16777216x1 ![0] bcast_S16777216_S16777216x1_0 x (ix2 n 0) = x (ix1 n) := by
  unfold broadcastInDim
  congr 1
  funext a
  match a with
  | ⟨0, _⟩ => exact (dif_neg (show ¬ S16777216.size (0 : Fin 1) = 1 by decide)).trans (Fin.ext rfl)

/-- The wrap of a flat index array, entry by entry. -/
theorem wrapped_apply (v : IVec S16777216 32) (M : BitVec 32) (p : S16777216.Idx) :
    (select (cmpi .slt v (broadcastInDim S16777216 ![] bcast_S_S16777216 (constantI S_ 32 0#32)))
      (addi v (broadcastInDim S16777216 ![] bcast_S_S16777216 (constantI S_ 32 M))) v) p = wrapW M (v p) := rfl

/-- The scatter's index word of pooled value `j` (row-major number `n`), read signed: the row-major position of the
    entry `(b, y, x, c)` it lands at. No wrap: the position is below `2^26`. -/
theorem index_toInt (A : IVec S16x128x128x64 32) (j : S16x128x128x64.Idx) (n : Fin 16777216)
    (hn : (S16x128x128x64.rowMajor j).val = n.val) :
    ((broadcastInDim S16777216x1 ![0] bcast_S16777216_S16777216x1_0
        (select (cmpi .slt (flatIdx A) (broadcastInDim S16777216 ![] bcast_S_S16777216 (constantI S_ 32 0#32)))
          (addi (flatIdx A) (broadcastInDim S16777216 ![] bcast_S_S16777216 (constantI S_ 32 67108864#32)))
          (flatIdx A))) (ix2 n 0)).toInt
      = (((j 0).val * 4194304 + (rowW (A j)).toNat * 16384 + (colW (A j)).toNat * 64 + (j 3).val : Nat) : Int) := by
  have h0 : (j 0).val < 16 := (j 0).isLt
  have h2 : (j 2).val < 128 := (j 2).isLt
  have h3 : (j 3).val < 64 := (j 3).isLt
  have hr := rowW_lt (A j)
  have hc := colW_lt (A j)
  rw [column_apply, wrapped_apply, flatIdx_apply A j n hn]
  have hv := flatW_toNat (j 0).val h0 (A j) ((j 2).val * 64 + (j 3).val) (by omega)
  have hlt : (flatW (j 0).val (A j) (BitVec.ofNat 32 ((j 2).val * 64 + (j 3).val))).toNat < 2 ^ 31 := by
    rw [hv]; omega
  rw [wrapW_of_lt _ _ hlt, toInt_of_lt _ hlt, hv]
  omega

/-- At the exact instance the host's accumulating scatter is the exact sum. -/
theorem scatterAdd_exact {s si su : Shape} {w : Nat} (d : ScatterDims s si su) (x : FVec Ideal s .f32) (idx : IVec si w)
    (upd : FVec Ideal su .f32) : Host.scatterAdd d x idx upd = Ideal.hostScatterAdd d x idx upd := rfl

/-- The kernel's flat scatter read at position `k`: the sum of the pooled values whose index word, read signed, is `k`. -/
theorem flatScatter_apply (x0 : FVec Ideal S67108864 .f32) (idx0 : IVec S16777216x1 32) (upd0 : FVec Ideal S16777216 .f32)
    (k : Fin 67108864) :
    Host.scatterAdd scatter_S67108864_S16777216x1_S16777216_n_0_0_1 x0 idx0 upd0 (ix1 k)
      = x0 (ix1 k) + ∑ n ∈ Finset.univ.filter (fun n : Fin 16777216 => (idx0 (ix2 n 0)).toInt = (k.val : Int)), upd0 (ix1 n) := by
  rw [scatterAdd_exact]
  exact scatterAdd_flat_apply _ rfl rfl rfl rfl x0 idx0 upd0 k

/-- The flat zero map is zero at every position. -/
theorem zeros_apply (p : S67108864.Idx) :
    (broadcastInDim S67108864 ![] bcast_S_S67108864 (constant (F := Ideal) S_ .f32 0x00000000#32) : FVec Ideal S67108864 .f32) p
      = (0 : EReal) :=
  Ideal.ofBits_zero_f32

/-- The pooled values' positions in row-major order. -/
def posEquiv : Fin 16777216 ≃ S16x128x128x64.Idx :=
  ((S16x128x128x64.rowMajor).trans (finCongr (by decide : S16x128x128x64.numel = 16777216))).symm

theorem rowMajor_posEquiv (n : Fin 16777216) : (S16x128x128x64.rowMajor (posEquiv n)).val = n.val := by
  simp [posEquiv]

/-- At the exact instance the kernel's result is the unpooling of its two arguments. -/
theorem kerOut_eq (U : FVec Ideal S16x128x128x64 .f32) (A : IVec S16x128x128x64 32) :
    kerOut (F := Ideal) U A = Unpool.unpool U A := by
  funext i
  have hi0 : (i 0).val < 16 := (i 0).isLt
  have hi1 : (i 1).val < 256 := (i 1).isLt
  have hi2 : (i 2).val < 256 := (i 2).isLt
  have hi3 : (i 3).val < 64 := (i 3).isLt
  let k : Fin 67108864 := ⟨(((i 0).val * 256 + (i 1).val) * 256 + (i 2).val) * 64 + (i 3).val, by omega⟩
  unfold kerOut
  rw [shapeCast_apply _ _ i (ix1 k) (by rw [Shape.rowMajor_val_one, Shape.rowMajor_val_four]; rfl)]
  have hk : k.val = (((i 0).val * 256 + (i 1).val) * 256 + (i 2).val) * 64 + (i 3).val := rfl
  rw [flatScatter_apply, zeros_apply, zero_add]
  unfold unpool
  refine Finset.sum_equiv posEquiv (fun n => ?_) (fun n _ => ?_)
  · have hidx := index_toInt A (posEquiv n) n (rowMajor_posEquiv n)
    have hr := rowW_lt (A (posEquiv n))
    have hc := colW_lt (A (posEquiv n))
    have h0 : (posEquiv n 0).val < 16 := (posEquiv n 0).isLt
    have h3 : (posEquiv n 3).val < 64 := (posEquiv n 3).isLt
    rw [Finset.mem_filter, Finset.mem_filter, hidx]
    simp only [Finset.mem_univ, true_and]
    unfold Lands
    constructor
    · intro h
      have h' : (posEquiv n 0).val * 4194304 + (rowW (A (posEquiv n))).toNat * 16384 + (colW (A (posEquiv n))).toNat * 64
          + (posEquiv n 3).val = k.val := by exact_mod_cast h
      rw [hk] at h'
      refine ⟨?_, ?_, ?_, ?_⟩ <;> omega
    · rintro ⟨e0, e1, e2, e3⟩
      have h' : (posEquiv n 0).val * 4194304 + (rowW (A (posEquiv n))).toNat * 16384 + (colW (A (posEquiv n))).toNat * 64
          + (posEquiv n 3).val = k.val := by rw [hk]; omega
      exact_mod_cast h'
  · exact shapeCast_apply U _ (ix1 n) (posEquiv n) (by rw [Shape.rowMajor_val_one]; exact rowMajor_posEquiv n)

end Cert.KernelIdeal.KValue

end
-- ==== Proof.RefTerm.lean ====
/-
  The reference's computation as one term of its two arguments: the row `(A div 16384) mod 256` and the column
  `(A div 64) mod 256` of every index word by floor division and the non-negative remainder, the batch and channel
  positions as iotas, each index wrapped once if negative, the four stacked into index vectors, and the values
  added into a zero map at those index vectors.
-/
import proofs.«403445_j52673478918313_3_alg».proof.ReferenceIdeal
import proofs.«403445_j52673478918313_3_alg».proof.Proof.Gen.ReferenceIdeal

noncomputable section

namespace Cert.ReferenceIdeal.RefTerm

open Idealize.ShloMosaic Cert.ReferenceIdeal Cert.ReferenceIdeal.Facts₀

variable {F : FTy → Type} [FloatOps F] [Facts]

/-- A scalar word along the whole index array. -/
abbrev splat (d : IVec S_ 32) : IVec S16x128x128x64 32 := broadcastInDim S16x128x128x64 ![] bcast_S_S16x128x128x64 d

/-- Floor division of every word by the scalar `d`: the truncating quotient, less one where the signs of dividend and
    divisor differ and the remainder is not zero. -/
def floorDiv (a : IVec S16x128x128x64 32) (d : IVec S_ 32) : IVec S16x128x128x64 32 :=
  select
    (andi (cmpi .ne (signi a) (splat (signi d)))
      (cmpi .ne (Host.remsi a (splat d)) (splat (constantI S_ 32 0#32))))
    (subi (Host.divsi a (splat d)) (splat (constantI S_ 32 1#32)))
    (Host.divsi a (splat d))

/-- The divisor the remainder uses: one in place of zero. -/
def safeDiv (d : IVec S_ 32) : IVec S_ 32 :=
  select (cmpi .eq d (constantI S_ 32 0#32)) (constantI S_ 32 1#32) d

/-- The remainder of every word by the scalar `d` with the sign of the divisor: the truncating remainder, plus the
    divisor where it is not zero and its sign differs from the divisor's. -/
def modulo (a : IVec S16x128x128x64 32) (d : IVec S_ 32) : IVec S16x128x128x64 32 :=
  select
    (andi
      (cmpi .ne (cmpi .slt (Host.remsi a (splat (safeDiv d))) (splat (constantI S_ 32 0#32)))
        (broadcastInDim S16x128x128x64 ![] bcast_S_S16x128x128x64 (cmpi .slt (safeDiv d) (constantI S_ 32 0#32))))
      (cmpi .ne (Host.remsi a (splat (safeDiv d))) (splat (constantI S_ 32 0#32))))
    (addi (Host.remsi a (splat (safeDiv d))) (splat (safeDiv d)))
    (Host.remsi a (splat (safeDiv d)))

/-- An index wrapped once: `v + n` where `v` is negative. -/
def wrap (s : Shape) (hb : S_.BroadcastsInDim s (![] : Fin 0 → Fin s.rank)) (n : BitVec 32) (v : IVec s 32) : IVec s 32 :=
  select (cmpi .slt v (broadcastInDim s ![] hb (constantI S_ 32 0#32))) (addi v (broadcastInDim s ![] hb (constantI S_ 32 n))) v

/-- An index array as one component of the index vectors. -/
abbrev col (v : IVec S16x128x128x64 32) : IVec S16x128x128x64x1 32 :=
  broadcastInDim S16x128x128x64x1 ![0, 1, 2, 3] bcast_S16x128x128x64_S16x128x128x64x1_0_1_2_3 v

/-- The row of every index word. -/
def rows (A : IVec S16x128x128x64 32) : IVec S16x128x128x64 32 :=
  modulo (floorDiv A (constantI S_ 32 16384#32)) (constantI S_ 32 256#32)

/-- The column of every index word. -/
def cols (A : IVec S16x128x128x64 32) : IVec S16x128x128x64 32 :=
  modulo (floorDiv A (constantI S_ 32 64#32)) (constantI S_ 32 256#32)

/-- The batch position of every entry. -/
def batches : IVec S16x128x128x64 32 :=
  broadcastInDim S16x128x128x64 ![0, 1, 2, 3] bcast_S16x1x1x1_S16x128x128x64_0_1_2_3
    (wrap S16x1x1x1 bcast_S_S16x1x1x1 16#32 (shapeCast S16x1x1x1 (iotaInDim S16 32 0) shapeCasts_S16_S16x1x1x1))

/-- The channel position of every entry. -/
def channels : IVec S16x128x128x64 32 :=
  broadcastInDim S16x128x128x64 ![0, 1, 2, 3] bcast_S1x1x1x64_S16x128x128x64_0_1_2_3
    (wrap S1x1x1x64 bcast_S_S1x1x1x64 64#32 (shapeCast S1x1x1x64 (iotaInDim S64 32 0) shapeCasts_S64_S1x1x1x64))

/-- The index vectors: batch, row, column, channel. -/
def indexVectors (A : IVec S16x128x128x64 32) : IVec S16x128x128x64x4 32 :=
  concatenate S16x128x128x64x4 4
    [⟨S16x128x128x64x1, col batches⟩,
     ⟨S16x128x128x64x1, col (wrap S16x128x128x64 bcast_S_S16x128x128x64 256#32 (rows A))⟩,
     ⟨S16x128x128x64x1, col (wrap S16x128x128x64 bcast_S_S16x128x128x64 256#32 (cols A))⟩,
     ⟨S16x128x128x64x1, col channels⟩]
    concatenates_S16x128x128x64x1_S16x128x128x64x1_S16x128x128x64x1_S16x128x128x64x1_S16x128x128x64x4_d4

/-- The reference's result. -/
def refOut (U : FVec F S16x128x128x64 .f32) (A : IVec S16x128x128x64 32) : FVec F S16x256x256x64 .f32 :=
  Host.scatterAdd scatter_S16x256x256x64_S16x128x128x64x4_S16x128x128x64_n_0123_0123_4
    (broadcastInDim S16x256x256x64 ![] bcast_S_S16x256x256x64 (constant S_ .f32 0x00000000#32))
    (indexVectors A) U

end Cert.ReferenceIdeal.RefTerm

end
-- ==== Proof.RefRun.lean ====
/-
  The reference's run: @main is a straight line of host operations (its four calls unfolded in place), every weakly
  fair execution ends, the result buffer holds the reference's term of the two arguments, and the arguments are kept.
-/
import proofs.«403445_j52673478918313_3_alg».proof.Proof.RefTerm
import Idealize.ShloMosaic.Lib.StableHlo.Run

noncomputable section

namespace Cert.ReferenceIdeal.RefRun

open Idealize.ShloMosaic Idealize.SL.Sem Idealize.ShloMosaic.StableHlo Cert.ReferenceIdeal Cert.ReferenceIdeal.Facts₀

variable {F : FTy → Type} [FloatOps F] [Facts]

/-! ## The operations -/

/-- The seventeen operations of one call of the floor division, over the call's buffers. -/
abbrev fdOps (a : TRef sig ⟨S16x128x128x64, .i32⟩) (d : TRef sig ⟨S_, .i32⟩) (φ : fn_floor_divide.Bufs) :
    List (HloOp τ sig (Elt F)) :=
  [ TRef.unary d φ.v0 id,
    TRef.unary φ.v0 φ.v1 (broadcastInDim S16x128x128x64 ![] bcast_S_S16x128x128x64),
    TRef.binary a φ.v1 φ.v2 Host.divsi,
    TRef.unary a φ.v3 signi,
    TRef.unary φ.v0 φ.v4 signi,
    TRef.unary φ.v4 φ.v5 (broadcastInDim S16x128x128x64 ![] bcast_S_S16x128x128x64),
    TRef.binary φ.v3 φ.v5 φ.v6 (cmpi .ne),
    TRef.unary φ.v0 φ.v7 (broadcastInDim S16x128x128x64 ![] bcast_S_S16x128x128x64),
    TRef.binary a φ.v7 φ.v8 Host.remsi,
    TRef.nullary φ.c (constantI S_ 32 0#32),
    TRef.unary φ.c φ.v9 (broadcastInDim S16x128x128x64 ![] bcast_S_S16x128x128x64),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S16x128x128x64 ![] bcast_S_S16x128x128x64),
    TRef.binary φ.v2 φ.v12 φ.v13 subi,
    TRef.ternary φ.v11 φ.v13 φ.v2 φ.call0.v0 select ]

/-- The twenty-one operations of one call of the remainder, over the call's buffers. -/
abbrev remOps (a : TRef sig ⟨S16x128x128x64, .i32⟩) (d : TRef sig ⟨S_, .i32⟩) (φ : fn_remainder.Bufs) :
    List (HloOp τ sig (Elt F)) :=
  [ TRef.unary d φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S16x128x128x64 ![] bcast_S_S16x128x128x64),
    TRef.binary a φ.v3 φ.v4 Host.remsi,
    TRef.nullary φ.c_1 (constantI S_ 32 0#32),
    TRef.unary φ.c_1 φ.v5 (broadcastInDim S16x128x128x64 ![] bcast_S_S16x128x128x64),
    TRef.binary φ.v4 φ.v5 φ.v6 (cmpi .ne),
    TRef.nullary φ.c_2 (constantI S_ 32 0#32),
    TRef.unary φ.c_2 φ.v7 (broadcastInDim S16x128x128x64 ![] bcast_S_S16x128x128x64),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S16x128x128x64 ![] bcast_S_S16x128x128x64),
    TRef.binary φ.v8 φ.v10 φ.v11 (cmpi .ne),
    TRef.binary φ.v11 φ.v6 φ.v12 andi,
    TRef.unary φ.call0.v0 φ.v13 (broadcastInDim S16x128x128x64 ![] bcast_S_S16x128x128x64),
    TRef.binary φ.v4 φ.v13 φ.v14 addi,
    TRef.ternary φ.v12 φ.v14 φ.v4 φ.v15 select ]

/-- The row's quotient: the divisor 16384 and the floor division of the index words by it. -/
abbrev ops0 : List (HloOp τ sig (Elt F)) :=
  nullary main_c (constantI S_ 32 16384#32) :: fdOps (.of main_arg1) (.of main_c) main_call0

/-- The row: the modulus 256 and the remainder of the quotient by it. -/
abbrev ops1 : List (HloOp τ sig (Elt F)) :=
  nullary main_c_0 (constantI S_ 32 256#32) :: remOps (.of main_v0) (.of main_c_0) main_call1

/-- The column's quotient: the divisor 64 and the floor division of the index words by it. -/
abbrev ops2 : List (HloOp τ sig (Elt F)) :=
  nullary main_c_1 (constantI S_ 32 64#32) :: fdOps (.of main_arg1) (.of main_c_1) main_call2

/-- The column: the modulus 256 and the remainder of the quotient by it. -/
abbrev ops3 : List (HloOp τ sig (Elt F)) :=
  nullary main_c_2 (constantI S_ 32 256#32) :: remOps (.of main_v2) (.of main_c_2) main_call3

/-- The iotas, the zero map, the four wrapped components and each as one component of the index vectors. -/
abbrev ops4 : List (HloOp τ sig (Elt F)) :=
  [ nullary main_v4 (iotaInDim S16 32 0),
    reshape main_v4 main_v5 rfl shapeCasts_S16_S16x1x1x1,
    nullary main_v6 (iotaInDim S64 32 0),
    reshape main_v6 main_v7 rfl shapeCasts_S64_S1x1x1x64,
    nullary main_cst (constant S_ .f32 0x00000000#32),
    unary main_cst main_v8 (broadcastInDim S16x256x256x64 ![] bcast_S_S16x256x256x64 : (⟨S_, .f32⟩ : BufTy).Contents (Elt F) → (⟨S16x256x256x64, .f32⟩ : BufTy).Contents (Elt F)),
    nullary main_c_3 (constantI S_ 32 0#32),
    unary main_c_3 main_v9 (broadcastInDim S16x1x1x1 ![] bcast_S_S16x1x1x1 : (⟨S_, .i32⟩ : BufTy).Contents (Elt F) → (⟨S16x1x1x1, .i32⟩ : BufTy).Contents (Elt F)),
    binary main_v5 main_v9 main_v10 (cmpi .slt : (⟨S16x1x1x1, .i32⟩ : BufTy).Contents (Elt F) → (⟨S16x1x1x1, .i32⟩ : BufTy).Contents (Elt F) → (⟨S16x1x1x1, .i1⟩ : BufTy).Contents (Elt F)),
    nullary main_c_4 (constantI S_ 32 16#32),
    unary main_c_4 main_v11 (broadcastInDim S16x1x1x1 ![] bcast_S_S16x1x1x1 : (⟨S_, .i32⟩ : BufTy).Contents (Elt F) → (⟨S16x1x1x1, .i32⟩ : BufTy).Contents (Elt F)),
    binary main_v5 main_v11 main_v12 (addi : (⟨S16x1x1x1, .i32⟩ : BufTy).Contents (Elt F) → (⟨S16x1x1x1, .i32⟩ : BufTy).Contents (Elt F) → (⟨S16x1x1x1, .i32⟩ : BufTy).Contents (Elt F)),
    ternary main_v10 main_v12 main_v5 main_v13 (select : (⟨S16x1x1x1, .i1⟩ : BufTy).Contents (Elt F) → (⟨S16x1x1x1, .i32⟩ : BufTy).Contents (Elt F) → (⟨S16x1x1x1, .i32⟩ : BufTy).Contents (Elt F) → (⟨S16x1x1x1, .i32⟩ : BufTy).Contents (Elt F)),
    nullary main_c_5 (constantI S_ 32 0#32),
    unary main_c_5 main_v14 (broadcastInDim S16x128x128x64 ![] bcast_S_S16x128x128x64 : (⟨S_, .i32⟩ : BufTy).Contents (Elt F) → (⟨S16x128x128x64, .i32⟩ : BufTy).Contents (Elt F)),
    binary main_v1 main_v14 main_v15 (cmpi .slt : (⟨S16x128x128x64, .i32⟩ : BufTy).Contents (Elt F) → (⟨S16x128x128x64, .i32⟩ : BufTy).Contents (Elt F) → (⟨S16x128x128x64, .i1⟩ : BufTy).Contents (Elt F)),
    nullary main_c_6 (constantI S_ 32 256#32),
    unary main_c_6 main_v16 (broadcastInDim S16x128x128x64 ![] bcast_S_S16x128x128x64 : (⟨S_, .i32⟩ : BufTy).Contents (Elt F) → (⟨S16x128x128x64, .i32⟩ : BufTy).Contents (Elt F)),
    binary main_v1 main_v16 main_v17 (addi : (⟨S16x128x128x64, .i32⟩ : BufTy).Contents (Elt F) → (⟨S16x128x128x64, .i32⟩ : BufTy).Contents (Elt F) → (⟨S16x128x128x64, .i32⟩ : BufTy).Contents (Elt F)),
    ternary main_v15 main_v17 main_v1 main_v18 (select : (⟨S16x128x128x64, .i1⟩ : BufTy).Contents (Elt F) → (⟨S16x128x128x64, .i32⟩ : BufTy).Contents (Elt F) → (⟨S16x128x128x64, .i32⟩ : BufTy).Contents (Elt F) → (⟨S16x128x128x64, .i32⟩ : BufTy).Contents (Elt F)),
    nullary main_c_7 (constantI S_ 32 0#32),
    unary main_c_7 main_v19 (broadcastInDim S16x128x128x64 ![] bcast_S_S16x128x128x64 : (⟨S_, .i32⟩ : BufTy).Contents (Elt F) → (⟨S16x128x128x64, .i32⟩ : BufTy).Contents (Elt F)),
    binary main_v3 main_v19 main_v20 (cmpi .slt : (⟨S16x128x128x64, .i32⟩ : BufTy).Contents (Elt F) → (⟨S16x128x128x64, .i32⟩ : BufTy).Contents (Elt F) → (⟨S16x128x128x64, .i1⟩ : BufTy).Contents (Elt F)),
    nullary main_c_8 (constantI S_ 32 256#32),
    unary main_c_8 main_v21 (broadcastInDim S16x128x128x64 ![] bcast_S_S16x128x128x64 : (⟨S_, .i32⟩ : BufTy).Contents (Elt F) → (⟨S16x128x128x64, .i32⟩ : BufTy).Contents (Elt F)),
    binary main_v3 main_v21 main_v22 (addi : (⟨S16x128x128x64, .i32⟩ : BufTy).Contents (Elt F) → (⟨S16x128x128x64, .i32⟩ : BufTy).Contents (Elt F) → (⟨S16x128x128x64, .i32⟩ : BufTy).Contents (Elt F)),
    ternary main_v20 main_v22 main_v3 main_v23 (select : (⟨S16x128x128x64, .i1⟩ : BufTy).Contents (Elt F) → (⟨S16x128x128x64, .i32⟩ : BufTy).Contents (Elt F) → (⟨S16x128x128x64, .i32⟩ : BufTy).Contents (Elt F) → (⟨S16x128x128x64, .i32⟩ : BufTy).Contents (Elt F)),
    nullary main_c_9 (constantI S_ 32 0#32),
    unary main_c_9 main_v24 (broadcastInDim S1x1x1x64 ![] bcast_S_S1x1x1x64 : (⟨S_, .i32⟩ : BufTy).Contents (Elt F) → (⟨S1x1x1x64, .i32⟩ : BufTy).Contents (Elt F)),
    binary main_v7 main_v24 main_v25 (cmpi .slt : (⟨S1x1x1x64, .i32⟩ : BufTy).Contents (Elt F) → (⟨S1x1x1x64, .i32⟩ : BufTy).Contents (Elt F) → (⟨S1x1x1x64, .i1⟩ : BufTy).Contents (Elt F)),
    nullary main_c_10 (constantI S_ 32 64#32),
    unary main_c_10 main_v26 (broadcastInDim S1x1x1x64 ![] bcast_S_S1x1x1x64 : (⟨S_, .i32⟩ : BufTy).Contents (Elt F) → (⟨S1x1x1x64, .i32⟩ : BufTy).Contents (Elt F)),
    binary main_v7 main_v26 main_v27 (addi : (⟨S1x1x1x64, .i32⟩ : BufTy).Contents (Elt F) → (⟨S1x1x1x64, .i32⟩ : BufTy).Contents (Elt F) → (⟨S1x1x1x64, .i32⟩ : BufTy).Contents (Elt F)),
    ternary main_v25 main_v27 main_v7 main_v28 (select : (⟨S1x1x1x64, .i1⟩ : BufTy).Contents (Elt F) → (⟨S1x1x1x64, .i32⟩ : BufTy).Contents (Elt F) → (⟨S1x1x1x64, .i32⟩ : BufTy).Contents (Elt F) → (⟨S1x1x1x64, .i32⟩ : BufTy).Contents (Elt F)),
    unary main_v13 main_v29 (broadcastInDim S16x128x128x64 ![0, 1, 2, 3] bcast_S16x1x1x1_S16x128x128x64_0_1_2_3 : (⟨S16x1x1x1, .i32⟩ : BufTy).Contents (Elt F) → (⟨S16x128x128x64, .i32⟩ : BufTy).Contents (Elt F)),
    unary main_v28 main_v30 (broadcastInDim S16x128x128x64 ![0, 1, 2, 3] bcast_S1x1x1x64_S16x128x128x64_0_1_2_3 : (⟨S1x1x1x64, .i32⟩ : BufTy).Contents (Elt F) → (⟨S16x128x128x64, .i32⟩ : BufTy).Contents (Elt F)),
    unary main_v29 main_v31 (broadcastInDim S16x128x128x64x1 ![0, 1, 2, 3] bcast_S16x128x128x64_S16x128x128x64x1_0_1_2_3 : (⟨S16x128x128x64, .i32⟩ : BufTy).Contents (Elt F) → (⟨S16x128x128x64x1, .i32⟩ : BufTy).Contents (Elt F)),
    unary main_v18 main_v32 (broadcastInDim S16x128x128x64x1 ![0, 1, 2, 3] bcast_S16x128x128x64_S16x128x128x64x1_0_1_2_3 : (⟨S16x128x128x64, .i32⟩ : BufTy).Contents (Elt F) → (⟨S16x128x128x64x1, .i32⟩ : BufTy).Contents (Elt F)),
    unary main_v23 main_v33 (broadcastInDim S16x128x128x64x1 ![0, 1, 2, 3] bcast_S16x128x128x64_S16x128x128x64x1_0_1_2_3 : (⟨S16x128x128x64, .i32⟩ : BufTy).Contents (Elt F) → (⟨S16x128x128x64x1, .i32⟩ : BufTy).Contents (Elt F)),
    unary main_v30 main_v34 (broadcastInDim S16x128x128x64x1 ![0, 1, 2, 3] bcast_S16x128x128x64_S16x128x128x64x1_0_1_2_3 : (⟨S16x128x128x64, .i32⟩ : BufTy).Contents (Elt F) → (⟨S16x128x128x64x1, .i32⟩ : BufTy).Contents (Elt F)) ]

/-- The index vectors stacked and the values added into the zero map at them. -/
abbrev ops5 : List (HloOp τ sig (Elt F)) :=
  [ nary ![main_v31, main_v32, main_v33, main_v34] main_v35 (fun u => concatenate S16x128x128x64x4 4 [⟨S16x128x128x64x1, u 0⟩, ⟨S16x128x128x64x1, u 1⟩, ⟨S16x128x128x64x1, u 2⟩, ⟨S16x128x128x64x1, u 3⟩] concatenates_S16x128x128x64x1_S16x128x128x64x1_S16x128x128x64x1_S16x128x128x64x1_S16x128x128x64x4_d4),
    ternary main_v8 main_v35 main_arg0 main_v36 ((fun x i u => Host.scatterAdd scatter_S16x256x256x64_S16x128x128x64x4_S16x128x128x64_n_0123_0123_4 x i u) : (⟨S16x256x256x64, .f32⟩ : BufTy).Contents (Elt F) → (⟨S16x128x128x64x4, .i32⟩ : BufTy).Contents (Elt F) → (⟨S16x128x128x64, .f32⟩ : BufTy).Contents (Elt F) → (⟨S16x256x256x64, .f32⟩ : BufTy).Contents (Elt F)) ]

/-- @main's operations in order, the four calls unfolded in place. -/
abbrev ops : List (HloOp τ sig (Elt F)) := ops0 ++ (ops1 ++ (ops2 ++ (ops3 ++ (ops4 ++ ops5))))

/-! ## @main is that straight line -/

set_option maxRecDepth 8192 in
/-- @main is the straight line of its operations: lines run one after the other are their concatenation run as one, and
    each call is its function's body on the call's buffers, the same steps in the same order. -/
theorem main_eq (c : Dev nD) : main (F := F) c = seq ops := by
  show main (F := F) c = seq (ops0 ++ (ops1 ++ (ops2 ++ (ops3 ++ (ops4 ++ ops5)))))
  rw [seq_append, seq_append, seq_append, seq_append, seq_append]
  rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines what it writes -/

theorem fd_sub (a : TRef sig ⟨S16x128x128x64, .i32⟩) (d : TRef sig ⟨S_, .i32⟩) (φ : fn_floor_divide.Bufs) :
    (fdOps (F := F) a d φ).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem rem_sub (a : TRef sig ⟨S16x128x128x64, .i32⟩) (d : TRef sig ⟨S_, .i32⟩) (φ : fn_remainder.Bufs) :
    (remOps (F := F) a d φ).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem ops4_sub : (ops4 (F := F)).Forall fun op => op.bufs ⊆ tcRefs τ sig :=
  ⟨nullary_bufs_sub .., reshape_bufs_sub .., nullary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub ..⟩

theorem ops5_sub : (ops5 (F := F)).Forall fun op => op.bufs ⊆ tcRefs τ sig :=
  ⟨nary_bufs_sub .., ternary_bufs_sub ..⟩

theorem ops_sub : (ops (F := F)).Forall fun op => op.bufs ⊆ tcRefs τ sig :=
  List.forall_append.2 ⟨(List.forall_cons _ _ _).2 ⟨nullary_bufs_sub .., fd_sub ..⟩,
    List.forall_append.2 ⟨(List.forall_cons _ _ _).2 ⟨nullary_bufs_sub .., rem_sub ..⟩,
      List.forall_append.2 ⟨(List.forall_cons _ _ _).2 ⟨nullary_bufs_sub .., fd_sub ..⟩,
        List.forall_append.2 ⟨(List.forall_cons _ _ _).2 ⟨nullary_bufs_sub .., rem_sub ..⟩,
          List.forall_append.2 ⟨ops4_sub, ops5_sub⟩⟩⟩⟩⟩

theorem fd_fresh (a : TRef sig ⟨S16x128x128x64, .i32⟩) (d : TRef sig ⟨S_, .i32⟩) (φ : fn_floor_divide.Bufs) :
    (fdOps (F := F) a d φ).Forall fun op => op.fresh = ∅ :=
  ⟨rfl, rfl, rfl, rfl, rfl, rfl, rfl, rfl, rfl, rfl, rfl, rfl, rfl, rfl, rfl, rfl, rfl⟩

theorem rem_fresh (a : TRef sig ⟨S16x128x128x64, .i32⟩) (d : TRef sig ⟨S_, .i32⟩) (φ : fn_remainder.Bufs) :
    (remOps (F := F) a d φ).Forall fun op => op.fresh = ∅ :=
  ⟨rfl, rfl, rfl, rfl, rfl, rfl, rfl, rfl, rfl, rfl, rfl, rfl, rfl, rfl, rfl, rfl, rfl, rfl, rfl, rfl, rfl⟩

theorem ops4_fresh : (ops4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_fresh : (ops5 (F := F)).Forall fun op => op.fresh = ∅ :=
  ⟨rfl, rfl⟩

theorem ops_fresh : ∀ op ∈ ops (F := F), op.fresh = ∅ :=
  List.forall_iff_forall_mem.1 <|
    List.forall_append.2 ⟨(List.forall_cons _ _ _).2 ⟨rfl, fd_fresh ..⟩,
      List.forall_append.2 ⟨(List.forall_cons _ _ _).2 ⟨rfl, rem_fresh ..⟩,
        List.forall_append.2 ⟨(List.forall_cons _ _ _).2 ⟨rfl, fd_fresh ..⟩,
          List.forall_append.2 ⟨(List.forall_cons _ _ _).2 ⟨rfl, rem_fresh ..⟩,
            List.forall_append.2 ⟨ops4_fresh, ops5_fresh⟩⟩⟩⟩⟩

/-! ## What each stage leaves -/

/-- Two lines run one after the other leave what the second leaves from what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- After the first stage the quotient buffer holds the floor division of the index words by 16384. -/
theorem v0_eq (V : Valuation τ sig (Elt F)) :
    after ops0 V (Proc.devRef .tc main_v0) = RefTerm.floorDiv (V (Proc.devRef .tc main_arg1)) (constantI S_ 32 16384#32) := by
  after_results_simp
  rfl

/-- The first stage keeps the first argument: none of its operations writes it. -/
theorem keep0_arg0 (V : Valuation τ sig (Elt F)) :
    after ops0 V (Proc.devRef .tc main_arg0) = V (Proc.devRef .tc main_arg0) := by
  after_results_simp

/-- The first stage keeps the second argument: none of its operations writes it. -/
theorem keep0_arg1 (V : Valuation τ sig (Elt F)) :
    after ops0 V (Proc.devRef .tc main_arg1) = V (Proc.devRef .tc main_arg1) := by
  after_results_simp

/-- After the second stage the row buffer holds the remainder of the quotient by 256. -/
theorem v1_eq (V : Valuation τ sig (Elt F)) :
    after ops1 V (Proc.devRef .tc main_v1) = RefTerm.modulo (V (Proc.devRef .tc main_v0)) (constantI S_ 32 256#32) := by
  after_results_simp
  rfl

/-- The second stage keeps the first argument: none of its operations writes it. -/
theorem keep1_arg0 (V : Valuation τ sig (Elt F)) :
    after ops1 V (Proc.devRef .tc main_arg0) = V (Proc.devRef .tc main_arg0) := by
  after_results_simp

/-- The second stage keeps the second argument: none of its operations writes it. -/
theorem keep1_arg1 (V : Valuation τ sig (Elt F)) :
    after ops1 V (Proc.devRef .tc main_arg1) = V (Proc.devRef .tc main_arg1) := by
  after_results_simp

/-- After the third stage the quotient buffer holds the floor division of the index words by 64. -/
theorem v2_eq (V : Valuation τ sig (Elt F)) :
    after ops2 V (Proc.devRef .tc main_v2) = RefTerm.floorDiv (V (Proc.devRef .tc main_arg1)) (constantI S_ 32 64#32) := by
  after_results_simp
  rfl

/-- The third stage keeps the row buffer: none of its operations writes it. -/
theorem keep2_v1 (V : Valuation τ sig (Elt F)) :
    after ops2 V (Proc.devRef .tc main_v1) = V (Proc.devRef .tc main_v1) := by
  after_results_simp

/-- The third stage keeps the first argument: none of its operations writes it. -/
theorem keep2_arg0 (V : Valuation τ sig (Elt F)) :
    after ops2 V (Proc.devRef .tc main_arg0) = V (Proc.devRef .tc main_arg0) := by
  after_results_simp

/-- The third stage keeps the second argument: none of its operations writes it. -/
theorem keep2_arg1 (V : Valuation τ sig (Elt F)) :
    after ops2 V (Proc.devRef .tc main_arg1) = V (Proc.devRef .tc main_arg1) := by
  after_results_simp

/-- After the fourth stage the column buffer holds the remainder of the quotient by 256. -/
theorem v3_eq (V : Valuation τ sig (Elt F)) :
    after ops3 V (Proc.devRef .tc main_v3) = RefTerm.modulo (V (Proc.devRef .tc main_v2)) (constantI S_ 32 256#32) := by
  after_results_simp
  rfl

/-- The fourth stage keeps the row buffer: none of its operations writes it. -/
theorem keep3_v1 (V : Valuation τ sig (Elt F)) :
    after ops3 V (Proc.devRef .tc main_v1) = V (Proc.devRef .tc main_v1) := by
  after_results_simp

/-- The fourth stage keeps the first argument: none of its operations writes it. -/
theorem keep3_arg0 (V : Valuation τ sig (Elt F)) :
    after ops3 V (Proc.devRef .tc main_arg0) = V (Proc.devRef .tc main_arg0) := by
  after_results_simp

/-- The fourth stage keeps the second argument: none of its operations writes it. -/
theorem keep3_arg1 (V : Valuation τ sig (Elt F)) :
    after ops3 V (Proc.devRef .tc main_arg1) = V (Proc.devRef .tc main_arg1) := by
  after_results_simp

/-- After the fifth stage: the zero map. -/
theorem v8_eq (V : Valuation τ sig (Elt F)) :
    after ops4 V (Proc.devRef .tc main_v8) = (broadcastInDim S16x256x256x64 ![] bcast_S_S16x256x256x64 (constant S_ .f32 0x00000000#32)) := by
  after_results_simp

/-- After the fifth stage: the batch component of the index vectors. -/
theorem v31_eq (V : Valuation τ sig (Elt F)) :
    after ops4 V (Proc.devRef .tc main_v31) = RefTerm.col RefTerm.batches := by
  after_results_simp
  rfl

/-- After the fifth stage: the row component of the index vectors, the row wrapped once. -/
theorem v32_eq (V : Valuation τ sig (Elt F)) :
    after ops4 V (Proc.devRef .tc main_v32) = RefTerm.col (RefTerm.wrap S16x128x128x64 bcast_S_S16x128x128x64 256#32 (V (Proc.devRef .tc main_v1))) := by
  after_results_simp
  rfl

/-- After the fifth stage: the column component of the index vectors, the column wrapped once. -/
theorem v33_eq (V : Valuation τ sig (Elt F)) :
    after ops4 V (Proc.devRef .tc main_v33) = RefTerm.col (RefTerm.wrap S16x128x128x64 bcast_S_S16x128x128x64 256#32 (V (Proc.devRef .tc main_v3))) := by
  after_results_simp
  rfl

/-- After the fifth stage: the channel component of the index vectors. -/
theorem v34_eq (V : Valuation τ sig (Elt F)) :
    after ops4 V (Proc.devRef .tc main_v34) = RefTerm.col RefTerm.channels := by
  after_results_simp
  rfl

/-- The fifth stage keeps the first argument: none of its operations writes it. -/
theorem keep4_arg0 (V : Valuation τ sig (Elt F)) :
    after ops4 V (Proc.devRef .tc main_arg0) = V (Proc.devRef .tc main_arg0) := by
  after_results_simp

/-- The fifth stage keeps the second argument: none of its operations writes it. -/
theorem keep4_arg1 (V : Valuation τ sig (Elt F)) :
    after ops4 V (Proc.devRef .tc main_arg1) = V (Proc.devRef .tc main_arg1) := by
  after_results_simp

attribute [local irreducible] Host.scatterAdd concatenate in
/-- After the last stage the result buffer holds the values added into the zero-map buffer's contents at the four
    component buffers' contents stacked. -/
theorem v36_eq (V : Valuation τ sig (Elt F)) :
    after ops5 V (Proc.devRef .tc main_v36)
      = Host.scatterAdd scatter_S16x256x256x64_S16x128x128x64x4_S16x128x128x64_n_0123_0123_4 (V (Proc.devRef .tc main_v8))
          (concatenate S16x128x128x64x4 4
        [⟨S16x128x128x64x1, V (Proc.devRef .tc main_v31)⟩, ⟨S16x128x128x64x1, V (Proc.devRef .tc main_v32)⟩, ⟨S16x128x128x64x1, V (Proc.devRef .tc main_v33)⟩, ⟨S16x128x128x64x1, V (Proc.devRef .tc main_v34)⟩]
        concatenates_S16x128x128x64x1_S16x128x128x64x1_S16x128x128x64x1_S16x128x128x64x1_S16x128x128x64x4_d4)
          (V (Proc.devRef .tc main_arg0)) := by
  after_results
  rfl

/-- The last stage keeps the first argument: none of its operations writes it. -/
theorem keep5_arg0 (V : Valuation τ sig (Elt F)) :
    after ops5 V (Proc.devRef .tc main_arg0) = V (Proc.devRef .tc main_arg0) := by
  after_results_simp

/-- The last stage keeps the second argument: none of its operations writes it. -/
theorem keep5_arg1 (V : Valuation τ sig (Elt F)) :
    after ops5 V (Proc.devRef .tc main_arg1) = V (Proc.devRef .tc main_arg1) := by
  after_results_simp

/-! ## The whole line -/

attribute [local irreducible] Host.scatterAdd concatenate Host.divsi Host.remsi in
/-- The result buffer after the whole line holds the reference's term of the two arguments. -/
theorem out_eq (V : Valuation τ sig (Elt F)) :
    after ops V (Proc.devRef .tc main_v36) = RefTerm.refOut (V (Proc.devRef .tc main_arg0)) (V (Proc.devRef .tc main_arg1)) := by
  show after (ops0 ++ (ops1 ++ (ops2 ++ (ops3 ++ (ops4 ++ ops5))))) V _ = _
  rw [after_app, after_app, after_app, after_app, after_app,
    v36_eq, v8_eq, v31_eq, v32_eq, v33_eq, v34_eq, keep4_arg0,
    keep3_v1, v3_eq, keep3_arg0, keep2_v1, v2_eq, keep2_arg0,
    v1_eq, keep1_arg0, keep1_arg1, v0_eq, keep0_arg0, keep0_arg1]
  rfl

/-- The first argument is kept: no operation writes it. -/
theorem arg0_eq (V : Valuation τ sig (Elt F)) : after ops V (Proc.devRef .tc main_arg0) = V (Proc.devRef .tc main_arg0) := by
  show after (ops0 ++ (ops1 ++ (ops2 ++ (ops3 ++ (ops4 ++ ops5))))) V _ = _
  rw [after_app, after_app, after_app, after_app, after_app,
    keep5_arg0, keep4_arg0, keep3_arg0, keep2_arg0, keep1_arg0, keep0_arg0]

/-- The second argument is kept: no operation writes it. -/
theorem arg1_eq (V : Valuation τ sig (Elt F)) : after ops V (Proc.devRef .tc main_arg1) = V (Proc.devRef .tc main_arg1) := by
  show after (ops0 ++ (ops1 ++ (ops2 ++ (ops3 ++ (ops4 ++ ops5))))) V _ = _
  rw [after_app, after_app, after_app, after_app, after_app,
    keep5_arg1, keep4_arg1, keep3_arg1, keep2_arg1, keep1_arg1, keep0_arg1]

/-- Every weakly fair execution of the reference ends; its result is `RefTerm.refOut` of the arguments, which are kept. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v36)
          = RefTerm.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.RefRun

end
-- ==== Proof.LibScatter4.lean ====
/-
  The host's accumulating scatter read at an index, for scalars added into a rank-4 array at full index vectors:
  the indices are an array `[a, b, c, e, 4]` whose last axis holds the four coordinates of the entry update
  `(p, q, r, t)` is added to.
-/
import Idealize.ShloMosaic.PureOps
import Idealize.ShloMosaic.Lib.ValueIdx

noncomputable section

namespace Idealize.ShloMosaic.ScatterRead

open Idealize.ShloMosaic Idealize.ShloMosaic.ValueIdx

/-! ## When an update lands at a given entry -/

/-- An update lands at `i` exactly when, on every operand axis, its start plus its window coordinate is `i`'s coordinate. -/
private theorem lands_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := congrArg Fin.val (congrFun (Option.some.inj h) a)
      simp only at h2
      have := (hh a).1
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    apply Fin.ext
    simp [h a]

/-! ## Full index vectors into a rank-4 array: start and window of an update -/

/-- On operand axis `k` the start of update `j` is component `k` of its index vector, read signed. -/
private theorem nd4_start {A B C D a b c e w : Nat}
    (wf : ScatterDims.WF ⟨4, ![A, B, C, D]⟩ ⟨5, ![a, b, c, e, 4]⟩ ⟨4, ![a, b, c, e]⟩ [] [0, 1, 2, 3] [0, 1, 2, 3] 4)
    (idx : IVec ⟨5, ![a, b, c, e, 4]⟩ w) (j : (⟨4, ![a, b, c, e]⟩ : Shape).Idx) (k : Fin 4) :
    (⟨[], [0, 1, 2, 3], [0, 1, 2, 3], 4, wf⟩ :
        ScatterDims ⟨4, ![A, B, C, D]⟩ ⟨5, ![a, b, c, e, 4]⟩ ⟨4, ![a, b, c, e]⟩).start j idx k
      = (idx (ix5 (j 0) (j 1) (j 2) (j 3) k)).toInt := by
  unfold ScatterDims.start
  match k with
  | ⟨0, _⟩ =>
    refine (dif_pos (List.mem_cons_self)).trans ?_
    congr 2
    funext b; refine Fin.ext ?_
    match b with
    | ⟨0, _⟩ => rfl
    | ⟨1, _⟩ => rfl
    | ⟨2, _⟩ => rfl
    | ⟨3, _⟩ => rfl
    | ⟨4, _⟩ => rfl
  | ⟨1, _⟩ =>
    refine (dif_pos (List.mem_cons_of_mem _ List.mem_cons_self)).trans ?_
    congr 2
    funext b; refine Fin.ext ?_
    match b with
    | ⟨0, _⟩ => rfl
    | ⟨1, _⟩ => rfl
    | ⟨2, _⟩ => rfl
    | ⟨3, _⟩ => rfl
    | ⟨4, _⟩ => rfl
  | ⟨2, _⟩ =>
    refine (dif_pos (List.mem_cons_of_mem _ (List.mem_cons_of_mem _ List.mem_cons_self))).trans ?_
    congr 2
    funext b; refine Fin.ext ?_
    match b with
    | ⟨0, _⟩ => rfl
    | ⟨1, _⟩ => rfl
    | ⟨2, _⟩ => rfl
    | ⟨3, _⟩ => rfl
    | ⟨4, _⟩ => rfl
  | ⟨3, _⟩ =>
    refine (dif_pos (List.mem_cons_of_mem _ (List.mem_cons_of_mem _ (List.mem_cons_of_mem _ List.mem_cons_self)))).trans ?_
    congr 2
    funext b; refine Fin.ext ?_
    match b with
    | ⟨0, _⟩ => rfl
    | ⟨1, _⟩ => rfl
    | ⟨2, _⟩ => rfl
    | ⟨3, _⟩ => rfl
    | ⟨4, _⟩ => rfl

/-- Every operand axis is inserted, so the window coordinate is `0` on each. -/
private theorem nd4_window {A B C D a b c e : Nat}
    (wf : ScatterDims.WF ⟨4, ![A, B, C, D]⟩ ⟨5, ![a, b, c, e, 4]⟩ ⟨4, ![a, b, c, e]⟩ [] [0, 1, 2, 3] [0, 1, 2, 3] 4)
    (j : (⟨4, ![a, b, c, e]⟩ : Shape).Idx) (k : Fin 4) :
    (⟨[], [0, 1, 2, 3], [0, 1, 2, 3], 4, wf⟩ :
        ScatterDims ⟨4, ![A, B, C, D]⟩ ⟨5, ![a, b, c, e, 4]⟩ ⟨4, ![a, b, c, e]⟩).window j k = 0 := by
  unfold ScatterDims.window
  rw [dif_neg]
  intro h
  have h2 := of_decide_eq_true (List.mem_filter.mp h).2
  apply h2
  match k with
  | ⟨0, _⟩ => exact List.mem_cons_self
  | ⟨1, _⟩ => exact List.mem_cons_of_mem _ List.mem_cons_self
  | ⟨2, _⟩ => exact List.mem_cons_of_mem _ (List.mem_cons_of_mem _ List.mem_cons_self)
  | ⟨3, _⟩ => exact List.mem_cons_of_mem _ (List.mem_cons_of_mem _ (List.mem_cons_of_mem _ List.mem_cons_self))

/-- An update lands at `i` exactly when its four index components, read signed, are `i`'s four coordinates. -/
private theorem nd4_lands {A B C D a b c e w : Nat}
    (wf : ScatterDims.WF ⟨4, ![A, B, C, D]⟩ ⟨5, ![a, b, c, e, 4]⟩ ⟨4, ![a, b, c, e]⟩ [] [0, 1, 2, 3] [0, 1, 2, 3] 4)
    (idx : IVec ⟨5, ![a, b, c, e, 4]⟩ w) (j : (⟨4, ![a, b, c, e]⟩ : Shape).Idx)
    (i : (⟨4, ![A, B, C, D]⟩ : Shape).Idx) :
    (⟨[], [0, 1, 2, 3], [0, 1, 2, 3], 4, wf⟩ :
        ScatterDims ⟨4, ![A, B, C, D]⟩ ⟨5, ![a, b, c, e, 4]⟩ ⟨4, ![a, b, c, e]⟩).resultIdx? j idx = some i
      ↔ (idx (ix5 (j 0) (j 1) (j 2) (j 3) (0 : Fin 4))).toInt = ((i 0).val : Int)
        ∧ (idx (ix5 (j 0) (j 1) (j 2) (j 3) (1 : Fin 4))).toInt = ((i 1).val : Int)
        ∧ (idx (ix5 (j 0) (j 1) (j 2) (j 3) (2 : Fin 4))).toInt = ((i 2).val : Int)
        ∧ (idx (ix5 (j 0) (j 1) (j 2) (j 3) (3 : Fin 4))).toInt = ((i 3).val : Int) := by
  rw [lands_iff]
  constructor
  · intro h
    have h0 := h 0
    have h1 := h 1
    have h2 := h 2
    have h3 := h 3
    rw [nd4_start, nd4_window, Nat.cast_zero, add_zero] at h0 h1 h2 h3
    exact ⟨h0, h1, h2, h3⟩
  · intro h k
    rw [nd4_start, nd4_window, Nat.cast_zero, add_zero]
    match k with
    | ⟨0, _⟩ => exact h.1
    | ⟨1, _⟩ => exact h.2.1
    | ⟨2, _⟩ => exact h.2.2.1
    | ⟨3, _⟩ => exact h.2.2.2

/-- SCALARS INTO A RANK-4 ARRAY BY FULL INDEX VECTORS. Entry `i` of the result is the operand's entry plus the sum of
    the updates `upd[j]` whose index vector `idx[j, ·]`, each component read signed, is `i`; an update whose index
    vector is outside the array lands nowhere. -/
theorem scatterAdd_nd4_apply {A B C D a b c e w : Nat}
    (d : ScatterDims (⟨4, ![A, B, C, D]⟩ : Shape) ⟨5, ![a, b, c, e, 4]⟩ ⟨4, ![a, b, c, e]⟩)
    (hu : d.updateWindowDims = []) (hi : d.insertedWindowDims = [0, 1, 2, 3])
    (hs : d.scatterDimsToOperandDims = [0, 1, 2, 3]) (hv : d.indexVectorDim = 4)
    (x : (⟨4, ![A, B, C, D]⟩ : Shape).Idx → EReal) (idx : IVec ⟨5, ![a, b, c, e, 4]⟩ w)
    (upd : (⟨4, ![a, b, c, e]⟩ : Shape).Idx → EReal) (i : (⟨4, ![A, B, C, D]⟩ : Shape).Idx) :
    Ideal.hostScatterAdd d x idx upd i
      = x i + ∑ j ∈ Finset.univ.filter (fun j : (⟨4, ![a, b, c, e]⟩ : Shape).Idx =>
          (idx (ix5 (j 0) (j 1) (j 2) (j 3) (0 : Fin 4))).toInt = ((i 0).val : Int)
          ∧ (idx (ix5 (j 0) (j 1) (j 2) (j 3) (1 : Fin 4))).toInt = ((i 1).val : Int)
          ∧ (idx (ix5 (j 0) (j 1) (j 2) (j 3) (2 : Fin 4))).toInt = ((i 2).val : Int)
          ∧ (idx (ix5 (j 0) (j 1) (j 2) (j 3) (3 : Fin 4))).toInt = ((i 3).val : Int)), upd j := by
  obtain ⟨uw, iw, sd, iv, wf⟩ := d
  dsimp only at hu hi hs hv
  subst hu hi hs hv
  unfold Ideal.hostScatterAdd
  congr 1
  refine Finset.sum_congr (Finset.filter_congr ?_) (fun _ _ => rfl)
  intro j _
  exact nd4_lands wf idx j i

end Idealize.ShloMosaic.ScatterRead

end
-- ==== Proof.RefValue.lean ====
/-
  The reference's result is the unpooling. Its index vectors are, component by component, the batch position, the row
  `(A div 16384) mod 256`, the column `(A div 64) mod 256` and the channel position of every pooled value, none of
  them negative, so no wrap changes them; the scatter adds every pooled value at the entry its index vector names.
-/
import proofs.«403445_j52673478918313_3_alg».proof.Proof.RefTerm
import proofs.«403445_j52673478918313_3_alg».proof.Proof.Words
import proofs.«403445_j52673478918313_3_alg».proof.Proof.LibScatter4
import Idealize.ShloMosaic.PureOps.Ideal
import Idealize.ShloMosaic.PureOps.Ideal.Laws
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.RefTerm Unpool Unpool.Words Idealize.ShloMosaic.ScatterRead

variable [Facts]

/-- The update position j with a last coordinate: an index of the index-vector array or of one of its components. -/
private abbrev at5 {n : Nat} (j : S16x128x128x64.Idx) (e : Fin n) : (⟨5, ![16, 128, 128, 64, n]⟩ : Shape).Idx :=
  ix5 (n0 := 16) (n1 := 128) (n2 := 128) (n3 := 64) (n4 := n) (j 0) (j 1) (j 2) (j 3) e

/-- One component of the index vectors, read at an update's position, is that component's array at the position:
    none of the four extents 16, 128, 128, 64 is one. -/
private theorem col_apply (v : IVec S16x128x128x64 32) (j : S16x128x128x64.Idx) (e : Fin 1) :
    col v (at5 j e) = v j := by
  refine broadcastInDim_apply _ _ v _ j ?_
  intro a
  match a with
  | ⟨0, h⟩ => rw [if_neg (show ¬ S16x128x128x64.size ⟨0, h⟩ = 1 from (by decide : ¬ (16 : Nat) = 1))]; rfl
  | ⟨1, h⟩ => rw [if_neg (show ¬ S16x128x128x64.size ⟨1, h⟩ = 1 from (by decide : ¬ (128 : Nat) = 1))]; rfl
  | ⟨2, h⟩ => rw [if_neg (show ¬ S16x128x128x64.size ⟨2, h⟩ = 1 from (by decide : ¬ (128 : Nat) = 1))]; rfl
  | ⟨3, h⟩ => rw [if_neg (show ¬ S16x128x128x64.size ⟨3, h⟩ = 1 from (by decide : ¬ (64 : Nat) = 1))]; rfl

/-- The wrap at one entry is the word wrap of that entry. -/
private theorem wrap_apply (s : Shape) (hb : S_.BroadcastsInDim s (![] : Fin 0 → Fin s.rank)) (n : BitVec 32)
    (v : IVec s 32) (k : s.Idx) : wrap s hb n v k = wrapW n (v k) := rfl

/-- Floor division at one entry is the word floor division of that entry. -/
private theorem floorDiv_apply (a : IVec S16x128x128x64 32) (d : BitVec 32) (j : S16x128x128x64.Idx) :
    floorDiv a (constantI S_ 32 d) j = floorDivW (a j) d := rfl

/-- The remainder by 256 at one entry is the word remainder of that entry: the guarded divisor is 256 itself. -/
private theorem modulo_apply (a : IVec S16x128x128x64 32) (j : S16x128x128x64.Idx) :
    modulo a (constantI S_ 32 256#32) j = moduloW (a j) 256#32 := by
  have hd : Scalar.select (IntOp.cmpi .eq (256#32 : BitVec 32) 0#32) (1#32 : BitVec 32) 256#32 = 256#32 := by decide
  show moduloW (a j) (Scalar.select (IntOp.cmpi .eq (256#32 : BitVec 32) 0#32) (1#32 : BitVec 32) 256#32) = _
  rw [hd]

/-- The row array at one entry. -/
private theorem rows_apply (A : IVec S16x128x128x64 32) (j : S16x128x128x64.Idx) : rows A j = rowW (A j) := by
  unfold rows
  rw [modulo_apply, floorDiv_apply, row_eq]

/-- The column array at one entry. -/
private theorem cols_apply (A : IVec S16x128x128x64 32) (j : S16x128x128x64.Idx) : cols A j = colW (A j) := by
  unfold cols
  rw [modulo_apply, floorDiv_apply, col_eq]

/-- The batch array at one entry is the entry's batch position as a word. -/
private theorem batches_apply (j : S16x128x128x64.Idx) : batches j = BitVec.ofNat 32 (j 0).val := by
  have hj : (j 0).val < 16 := (j 0).isLt
  let k : S16x1x1x1.Idx := ix4 (n0 := 16) (n1 := 1) (n2 := 1) (n3 := 1) (j 0) 0 0 0
  have hk : ∀ a : Fin S16x1x1x1.rank, (k a).val
      = if S16x1x1x1.size a = 1 then 0 else (j ((![0, 1, 2, 3] : Fin 4 → Fin S16x128x128x64.rank) a)).val := by
    intro a
    match a with
    | ⟨0, h⟩ => rw [if_neg (show ¬ S16x1x1x1.size ⟨0, h⟩ = 1 from (by decide : ¬ (16 : Nat) = 1))]; rfl
    | ⟨1, h⟩ => rw [if_pos (show S16x1x1x1.size ⟨1, h⟩ = 1 from rfl)]; rfl
    | ⟨2, h⟩ => rw [if_pos (show S16x1x1x1.size ⟨2, h⟩ = 1 from rfl)]; rfl
    | ⟨3, h⟩ => rw [if_pos (show S16x1x1x1.size ⟨3, h⟩ = 1 from rfl)]; rfl
  have e1 : batches j = wrapW 16#32 (shapeCast S16x1x1x1 (iotaInDim S16 32 0) Facts₀.shapeCasts_S16_S16x1x1x1 k) :=
    broadcastInDim_apply _ _ _ j k hk
  have e2 : shapeCast S16x1x1x1 (iotaInDim S16 32 0) Facts₀.shapeCasts_S16_S16x1x1x1 k
      = iotaInDim S16 32 0 (ix1 (n := 16) (j 0)) := by
    refine shapeCast_apply _ _ _ _ ?_
    rw [Shape.rowMajor_val_one, Shape.rowMajor_val_four]
    show (j 0).val = (((j 0).val * 1 + 0) * 1 + 0) * 1 + 0
    omega
  rw [e1, e2]
  show wrapW 16#32 (BitVec.ofNat 32 (j 0).val) = _
  refine wrapW_of_lt _ _ ?_
  rw [BitVec.toNat_ofNat]
  omega

/-- The channel array at one entry is the entry's channel position as a word. -/
private theorem channels_apply (j : S16x128x128x64.Idx) : channels j = BitVec.ofNat 32 (j 3).val := by
  have hj : (j 3).val < 64 := (j 3).isLt
  let k : S1x1x1x64.Idx := ix4 (n0 := 1) (n1 := 1) (n2 := 1) (n3 := 64) 0 0 0 (j 3)
  have hk : ∀ a : Fin S1x1x1x64.rank, (k a).val
      = if S1x1x1x64.size a = 1 then 0 else (j ((![0, 1, 2, 3] : Fin 4 → Fin S16x128x128x64.rank) a)).val := by
    intro a
    match a with
    | ⟨0, h⟩ => rw [if_pos (show S1x1x1x64.size ⟨0, h⟩ = 1 from rfl)]; rfl
    | ⟨1, h⟩ => rw [if_pos (show S1x1x1x64.size ⟨1, h⟩ = 1 from rfl)]; rfl
    | ⟨2, h⟩ => rw [if_pos (show S1x1x1x64.size ⟨2, h⟩ = 1 from rfl)]; rfl
    | ⟨3, h⟩ => rw [if_neg (show ¬ S1x1x1x64.size ⟨3, h⟩ = 1 from (by decide : ¬ (64 : Nat) = 1))]; rfl
  have e1 : channels j = wrapW 64#32 (shapeCast S1x1x1x64 (iotaInDim S64 32 0) Facts₀.shapeCasts_S64_S1x1x1x64 k) :=
    broadcastInDim_apply _ _ _ j k hk
  have e2 : shapeCast S1x1x1x64 (iotaInDim S64 32 0) Facts₀.shapeCasts_S64_S1x1x1x64 k
      = iotaInDim S64 32 0 (ix1 (n := 64) (j 3)) := by
    refine shapeCast_apply _ _ _ _ ?_
    rw [Shape.rowMajor_val_one, Shape.rowMajor_val_four]
    show (j 3).val = ((0 * 1 + 0) * 1 + 0) * 64 + (j 3).val
    omega
  rw [e1, e2]
  show wrapW 64#32 (BitVec.ofNat 32 (j 3).val) = _
  refine wrapW_of_lt _ _ ?_
  rw [BitVec.toNat_ofNat]
  omega

/-- Off the last axis a component's index and the index-vector array's index agree. -/
private theorem off_axis (j : S16x128x128x64.Idx) (e : Fin 4) (b : Fin S16x128x128x64x1.rank)
    (hb : b.cast (rfl : S16x128x128x64x1.rank = S16x128x128x64x4.rank) ≠ (4 : Fin 5)) :
    ((at5 j (0 : Fin 1) : S16x128x128x64x1.Idx) b).val
      = ((at5 j e : S16x128x128x64x4.Idx) (b.cast (rfl : S16x128x128x64x1.rank = S16x128x128x64x4.rank))).val := by
  match b with
  | ⟨0, _⟩ => rfl
  | ⟨1, _⟩ => rfl
  | ⟨2, _⟩ => rfl
  | ⟨3, _⟩ => rfl
  | ⟨4, _⟩ => exact absurd rfl hb

/-- Component 0 of the index vector of update j is the batch array at j. -/
private theorem iv0 (A : IVec S16x128x128x64 32) (j : S16x128x128x64.Idx) :
    indexVectors A (at5 j (0 : Fin 4)) = batches j := by
  rw [← col_apply batches j 0]
  unfold indexVectors
  refine concatenate_apply_piece (4 : Fin 5) _ _ (at5 j (0 : Fin 4)) 0 ?_ S16x128x128x64x1 (col batches) ?_ rfl 0 ?_
    (at5 j (0 : Fin 1)) ?_ ?_
  · exact (by decide : (0 : Nat) < 4)
  · rfl
  · rfl
  · exact off_axis j 0
  · rfl

/-- Component 1 is the wrapped row array at j. -/
private theorem iv1 (A : IVec S16x128x128x64 32) (j : S16x128x128x64.Idx) :
    indexVectors A (at5 j (1 : Fin 4)) = wrap S16x128x128x64 Facts₀.bcast_S_S16x128x128x64 256#32 (rows A) j := by
  rw [← col_apply (wrap S16x128x128x64 Facts₀.bcast_S_S16x128x128x64 256#32 (rows A)) j 0]
  unfold indexVectors
  refine concatenate_apply_piece (4 : Fin 5) _ _ (at5 j (1 : Fin 4)) 1 ?_ S16x128x128x64x1 _ ?_ rfl 1 ?_
    (at5 j (0 : Fin 1)) ?_ ?_
  · exact (by decide : (1 : Nat) < 4)
  · rfl
  · rfl
  · exact off_axis j 1
  · rfl

/-- Component 2 is the wrapped column array at j. -/
private theorem iv2 (A : IVec S16x128x128x64 32) (j : S16x128x128x64.Idx) :
    indexVectors A (at5 j (2 : Fin 4)) = wrap S16x128x128x64 Facts₀.bcast_S_S16x128x128x64 256#32 (cols A) j := by
  rw [← col_apply (wrap S16x128x128x64 Facts₀.bcast_S_S16x128x128x64 256#32 (cols A)) j 0]
  unfold indexVectors
  refine concatenate_apply_piece (4 : Fin 5) _ _ (at5 j (2 : Fin 4)) 2 ?_ S16x128x128x64x1 _ ?_ rfl 2 ?_
    (at5 j (0 : Fin 1)) ?_ ?_
  · exact (by decide : (2 : Nat) < 4)
  · rfl
  · rfl
  · exact off_axis j 2
  · rfl

/-- Component 3 is the channel array at j. -/
private theorem iv3 (A : IVec S16x128x128x64 32) (j : S16x128x128x64.Idx) :
    indexVectors A (at5 j (3 : Fin 4)) = channels j := by
  rw [← col_apply channels j 0]
  unfold indexVectors
  refine concatenate_apply_piece (4 : Fin 5) _ _ (at5 j (3 : Fin 4)) 3 ?_ S16x128x128x64x1 (col channels) ?_ rfl 3 ?_
    (at5 j (0 : Fin 1)) ?_ ?_
  · exact (by decide : (3 : Nat) < 4)
  · rfl
  · rfl
  · exact off_axis j 3
  · rfl

/-- Component 0 of an update's index vector, read signed, is the update's batch position. -/
private theorem comp0 (A : IVec S16x128x128x64 32) (j : S16x128x128x64.Idx) :
    (indexVectors A (at5 j (0 : Fin 4))).toInt = ((j 0).val : Int) := by
  have hj : (j 0).val < 16 := (j 0).isLt
  have hn : (BitVec.ofNat 32 (j 0).val).toNat = (j 0).val := WordArith.toNat_ofNat_of_lt _ (by omega)
  rw [iv0, batches_apply, toInt_of_lt _ (by rw [hn]; omega), hn]

/-- Component 1, read signed, is the row its index word names. -/
private theorem comp1 (A : IVec S16x128x128x64 32) (j : S16x128x128x64.Idx) :
    (indexVectors A (at5 j (1 : Fin 4))).toInt = ((rowW (A j)).toNat : Int) := by
  have hr := rowW_lt (A j)
  rw [iv1, wrap_apply, rows_apply, wrapW_of_lt _ _ (by omega), toInt_of_lt _ (by omega)]

/-- Component 2, read signed, is the column its index word names. -/
private theorem comp2 (A : IVec S16x128x128x64 32) (j : S16x128x128x64.Idx) :
    (indexVectors A (at5 j (2 : Fin 4))).toInt = ((colW (A j)).toNat : Int) := by
  have hc := colW_lt (A j)
  rw [iv2, wrap_apply, cols_apply, wrapW_of_lt _ _ (by omega), toInt_of_lt _ (by omega)]

/-- Component 3, read signed, is the update's channel position. -/
private theorem comp3 (A : IVec S16x128x128x64 32) (j : S16x128x128x64.Idx) :
    (indexVectors A (at5 j (3 : Fin 4))).toInt = ((j 3).val : Int) := by
  have hj : (j 3).val < 64 := (j 3).isLt
  have hn : (BitVec.ofNat 32 (j 3).val).toNat = (j 3).val := WordArith.toNat_ofNat_of_lt _ (by omega)
  rw [iv3, channels_apply, toInt_of_lt _ (by rw [hn]; omega), hn]

/-- At the exact instance the reference's result is the unpooling of its two arguments. -/
theorem refOut_eq (U : FVec Ideal S16x128x128x64 .f32) (A : IVec S16x128x128x64 32) :
    RefTerm.refOut (F := Ideal) U A = Unpool.unpool U A := by
  funext i
  unfold RefTerm.refOut Unpool.unpool
  show Ideal.hostScatterAdd scatter_S16x256x256x64_S16x128x128x64x4_S16x128x128x64_n_0123_0123_4 _ (indexVectors A) U i = _
  rw [scatterAdd_nd4_apply _ rfl rfl rfl rfl]
  have hz : broadcastInDim S16x256x256x64 ![] Facts₀.bcast_S_S16x256x256x64 (constant (F := Ideal) S_ .f32 0x00000000#32) i = 0 :=
    Ideal.ofBits_zero_f32
  rw [hz, zero_add]
  refine Finset.sum_congr (Finset.filter_congr fun j _ => ?_) (fun _ _ => rfl)
  have c0 := comp0 A j
  have c1 := comp1 A j
  have c2 := comp2 A j
  have c3 := comp3 A j
  unfold Lands
  constructor
  · rintro ⟨a0, a1, a2, a3⟩
    have b0 := c0.symm.trans a0
    have b1 := c1.symm.trans a1
    have b2 := c2.symm.trans a2
    have b3 := c3.symm.trans a3
    exact ⟨by exact_mod_cast b0, by exact_mod_cast b1, by exact_mod_cast b2, by exact_mod_cast b3⟩
  · rintro ⟨a0, a1, a2, a3⟩
    exact ⟨c0.trans (by exact_mod_cast a0), c1.trans (by exact_mod_cast a1), c2.trans (by exact_mod_cast a2),
      c3.trans (by exact_mod_cast a3)⟩

end Cert.ReferenceIdeal.RefValue

end
-- ==== Proof.lean ====
/-
  Max-unpooling by a flat scatter against max-unpooling by full index vectors: both programs compute, entry by entry of
  the `[16, 256, 256, 64]` map, the sum of the pooled values `U[b, h, w, c]` whose index word `A[b, h, w, c]` names
  that entry's row (bits 14 to 21) and column (bits 6 to 13), batch and channel being the value's own position
  (`Unpool.unpool`, Proof/Spec.lean).

  The kernel decodes row and column by mask and shift and folds them with batch and channel into one flat position
  `b * 2^22 + y * 2^14 + x * 64 + c` per pooled value (one grid point per batch; Proof/KernelValue.lean reads this off
  the frame run, whose frame certificate is Proof/KernelIdealFrame.lean); the host then adds the flattened values into a
  flat zero map at those positions. Positions and entries correspond one to one (row-major order), so the flat sum at
  an entry's position is the sum over the values that land at the entry (Proof/KernelBridge.lean).

  The reference decodes row and column by floor division and non-negative remainder, `(A div 16384) mod 256` and
  `(A div 64) mod 256`: the same bits for every 32-bit word, negative ones included (Proof/Words.lean); none of its
  four index components is negative, so the wrap of negative indices changes nothing, and its scatter by index vectors
  adds each value at the entry the vector names (Proof/RefRun.lean, the run; Proof/RefValue.lean, the value).

  Addition of extended reals is commutative and associative, so the two sums, over the same set of values, are one
  number whatever the order; the precondition is not used. The ideal pass rewrote nothing, so `preserves` is `True`.
-/
import proofs.«403445_j52673478918313_3_alg».proof.Defs
import proofs.«403445_j52673478918313_3_alg».proof.Proof.Gen.Kernel
import proofs.«403445_j52673478918313_3_alg».proof.Proof.Gen.KernelIdeal
import proofs.«403445_j52673478918313_3_alg».proof.Proof.Gen.ReferenceIdeal
import proofs.«403445_j52673478918313_3_alg».proof.Proof.Gen.Pre_finite_inputs
import proofs.«403445_j52673478918313_3_alg».proof.Proof.KernelFrame
import proofs.«403445_j52673478918313_3_alg».proof.Proof.KernelIdealFrame
import proofs.«403445_j52673478918313_3_alg».proof.Proof.KernelBridge
import proofs.«403445_j52673478918313_3_alg».proof.Proof.RefRun
import proofs.«403445_j52673478918313_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.GenP.frame m ρ

/-- The idealized kernel runs and keeps its arguments. -/
theorem frame_kernelIdeal : Cert.frame_KernelIdeal := fun m ρ _ => Cert.KernelIdeal.GenP.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the arguments both programs end with the unpooling of those arguments. -/
theorem algebraic : Cert.algebraic_KernelIdeal_ReferenceIdeal := by
  intro m ρ m' ρ' _ hagree
  refine ⟨fun c => Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.kerOut_eq _ _), (h c).2.1, (h c).2.2⟩)
      (Cert.KernelIdeal.KValue.run (F := Ideal) m ρ)
  · refine (θ_run Cert.ReferenceIdeal.defs _ _).mono (fun _ h c => ⟨?_, (h c).2.1, (h c).2.2⟩)
      (Cert.ReferenceIdeal.RefRun.run (F := Ideal) m' ρ')
    rw [(h c).1, Cert.ReferenceIdeal.RefValue.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
